-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x24x1000x1 : Shape := ⟨4, ![8, 24, 1000, 1]⟩
abbrev S1000x16 : Shape := ⟨2, ![1000, 16]⟩
abbrev S32x16 : Shape := ⟨2, ![32, 16]⟩
abbrev S32 : Shape := ⟨1, ![32]⟩
abbrev S16x512 : Shape := ⟨2, ![16, 512]⟩
abbrev S16 : Shape := ⟨1, ![16]⟩
abbrev S1x256 : Shape := ⟨2, ![1, 256]⟩
abbrev S1 : Shape := ⟨1, ![1]⟩
abbrev S_ : Shape := ⟨0, ![]⟩

class Facts : Prop where
  bcast_S_S8x24x1000x1 : S_.BroadcastsInDim S8x24x1000x1 (![] : Fin 0 → Fin S8x24x1000x1.rank)
  reducesTo_S8x24x1000x1_S_d0_1_2_3 : S8x24x1000x1.ReducesTo [0, 1, 2, 3] S_
  h_S_ : 0 < S_.numel
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S1000x16 : S_.BroadcastsInDim S1000x16 (![] : Fin 0 → Fin S1000x16.rank)
  reducesTo_S1000x16_S_d0_1 : S1000x16.ReducesTo [0, 1] S_

variable [Facts]

def fn_part2 {F : FTy → Type} [FloatOps F] (main_arg1 : IVec S1000x16 32) (main_arg8 : FVec F S16 .f32) (main_arg9 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_c_16 : IVec S_ 32 := constantI S_ 32 0#32
  let main_v44 : IVec S1000x16 32 := broadcastInDim S1000x16 ![] bcast_S_S1000x16 main_c_16
  let main_v45 : IVec S1000x16 1 := cmpi .sge main_arg1 main_v44
  let main_c_17 : IVec S_ 1 := constantI S_ 1 1#1
  let main_v46 : IVec S_ 1 := (fun x v => Host.reduce IntOp.andi x v reducesTo_S1000x16_S_d0_1 h_S_) main_v45 main_c_17
  let main_v47 : IVec S_ 1 := andi main_v43 main_v46
  main_v47

def fn_part1 {F : FTy → Type} [FloatOps F] (main_arg1 : IVec S1000x16 32) (main_arg5 : FVec F S16 .f32) (main_arg6 : FVec F S1x256 .f32) (main_arg7 : FVec F S1 .f32) (main_arg8 : FVec F S16 .f32) (main_arg9 : FVec F S16 .f32) (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S1x256 .f32 := Host.absf main_arg6
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_v33

def fn {F : FTy → Type} [FloatOps F] (main_arg0 : FVec F S8x24x1000x1 .f32) (main_arg1 : IVec S1000x16 32) (main_arg2 : FVec F S32x16 .f32) (main_arg3 : FVec F S32 .f32) (main_arg4 : FVec F S16x512 .f32) (main_arg5 : FVec F S16 .f32) (main_arg6 : FVec F S1x256 .f32) (main_arg7 : FVec F S1 .f32) (main_arg8 : FVec F S16 .f32) (main_arg9 : FVec F S16 .f32) : IVec S_ 1 :=
  let main_v0 : FVec F S8x24x1000x1 .f32 := Host.absf main_arg0
  let main_cst : FVec F S_ .f32 := constant S_ .f32 0x7F800000#32
  let main_v1 : FVec F S8x24x1000x1 .f32 := broadcastInDim S8x24x1000x1 ![] bcast_S_S8x24x1000x1 main_cst
  let main_v2 : IVec S8x24x1000x1 1 := cmpf .olt main_v0 main_v1
  let main_c : IVec S_ 1 := constantI S_ 1 1#1
  let main_v3 : IVec S_ 1 := (fun x v => Host.reduce IntOp.andi x v reducesTo_S8x24x1000x1_S_d0_1_2_3 h_S_) main_v2 main_c
  let main_v4 : FVec F S32x16 .f32 := Host.absf main_arg2
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16x512 .f32 := Host.absf main_arg4
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_arg1 main_arg5 main_arg6 main_arg7 main_arg8 main_arg9 main_v13 main_v16
-- ==== Kernel.lean ====
abbrev S8x24x1000x1 : Shape := ⟨4, ![8, 24, 1000, 1]⟩
abbrev S1000x16 : Shape := ⟨2, ![1000, 16]⟩
abbrev S32x16 : Shape := ⟨2, ![32, 16]⟩
abbrev S32 : Shape := ⟨1, ![32]⟩
abbrev S16x512 : Shape := ⟨2, ![16, 512]⟩
abbrev S16 : Shape := ⟨1, ![16]⟩
abbrev S1x256 : Shape := ⟨2, ![1, 256]⟩
abbrev S1 : Shape := ⟨1, ![1]⟩
abbrev S16000 : Shape := ⟨1, ![16000]⟩
abbrev S_ : Shape := ⟨0, ![]⟩
abbrev S1x16000 : Shape := ⟨2, ![1, 16000]⟩
abbrev S1000x1 : Shape := ⟨2, ![1000, 1]⟩
abbrev S1000x16000 : Shape := ⟨2, ![1000, 16000]⟩
abbrev S16x32 : Shape := ⟨2, ![16, 32]⟩
abbrev S512x16 : Shape := ⟨2, ![512, 16]⟩
abbrev S256x1 : Shape := ⟨2, ![256, 1]⟩
abbrev S192x1000 : Shape := ⟨2, ![192, 1000]⟩
abbrev S192x16000 : Shape := ⟨2, ![192, 16000]⟩
abbrev S1000x3200 : Shape := ⟨2, ![1000, 3200]⟩
abbrev S192x3200 : Shape := ⟨2, ![192, 3200]⟩
abbrev S192000x16 : Shape := ⟨2, ![192000, 16]⟩
abbrev S192000x32 : Shape := ⟨2, ![192000, 32]⟩
abbrev S8000x16 : Shape := ⟨2, ![8000, 16]⟩
abbrev S8000x32 : Shape := ⟨2, ![8000, 32]⟩
abbrev S1x32 : Shape := ⟨2, ![1, 32]⟩
abbrev S192x1000x32 : Shape := ⟨3, ![192, 1000, 32]⟩
abbrev S192x32x1000 : Shape := ⟨3, ![192, 32, 1000]⟩
abbrev S6144x1000 : Shape := ⟨2, ![6144, 1000]⟩
abbrev S6144x16000 : Shape := ⟨2, ![6144, 16000]⟩
abbrev S1000x128 : Shape := ⟨2, ![1000, 128]⟩
abbrev S6144x128 : Shape := ⟨2, ![6144, 128]⟩
abbrev S192x32x1000x16 : Shape := ⟨4, ![192, 32, 1000, 16]⟩
abbrev S192000x512 : Shape := ⟨2, ![192000, 512]⟩
abbrev S8000x512 : Shape := ⟨2, ![8000, 512]⟩
abbrev S1x16 : Shape := ⟨2, ![1, 16]⟩
abbrev S192x1000x16 : Shape := ⟨3, ![192, 1000, 16]⟩
abbrev S192x16x1000 : Shape := ⟨3, ![192, 16, 1000]⟩
abbrev S3072x1000 : Shape := ⟨2, ![3072, 1000]⟩
abbrev S3072x16000 : Shape := ⟨2, ![3072, 16000]⟩
abbrev S1000x640 : Shape := ⟨2, ![1000, 640]⟩
abbrev S3072x640 : Shape := ⟨2, ![3072, 640]⟩
abbrev S192x16x1000x16 : Shape := ⟨4, ![192, 16, 1000, 16]⟩
abbrev S192000x256 : Shape := ⟨2, ![192000, 256]⟩
abbrev S192000x1 : Shape := ⟨2, ![192000, 1]⟩
abbrev S8000x256 : Shape := ⟨2, ![8000, 256]⟩
abbrev S8000x1 : Shape := ⟨2, ![8000, 1]⟩
abbrev S1x1 : Shape := ⟨2, ![1, 1]⟩
abbrev S8x24x1000 : Shape := ⟨3, ![8, 24, 1000]⟩

abbrev nBuf : Space → Nat
  | .hbm => 55
  | .vmem => 35
  | .smem => 0
  | _ => 0

abbrev bufTy : (tb : Table) → Fin (tcTables nBuf tb) → BufTy
  | .hbm, ⟨0, _⟩ => ⟨S8x24x1000x1, .f32⟩
  | .hbm, ⟨1, _⟩ => ⟨S1000x16, .i32⟩
  | .hbm, ⟨2, _⟩ => ⟨S32x16, .f32⟩
  | .hbm, ⟨3, _⟩ => ⟨S32, .f32⟩
  | .hbm, ⟨4, _⟩ => ⟨S16x512, .f32⟩
  | .hbm, ⟨5, _⟩ => ⟨S16, .f32⟩
  | .hbm, ⟨6, _⟩ => ⟨S1x256, .f32⟩
  | .hbm, ⟨7, _⟩ => ⟨S1, .f32⟩
  | .hbm, ⟨8, _⟩ => ⟨S16, .f32⟩
  | .hbm, ⟨9, _⟩ => ⟨S16, .f32⟩
  | .hbm, ⟨10, _⟩ => ⟨S16000, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16000, .i32⟩
  | .hbm, ⟨15, _⟩ => ⟨S16000, .i32⟩
  | .hbm, ⟨16, _⟩ => ⟨S_, .i32⟩
  | .hbm, ⟨17, _⟩ => ⟨S16000, .i32⟩
  | .hbm, ⟨18, _⟩ => ⟨S16000, .i32⟩
  | .hbm, ⟨19, _⟩ => ⟨S1x16000, .i32⟩
  | .hbm, ⟨20, _⟩ => ⟨S1000x1, .i32⟩
  | .hbm, ⟨21, _⟩ => ⟨S1000x16000, .i32⟩
  | .hbm, ⟨22, _⟩ => ⟨S1000x16000, .i32⟩
  | .hbm, ⟨23, _⟩ => ⟨S1000x16000, .i1⟩
  | .hbm, ⟨24, _⟩ => ⟨S1000x16000, .bf16⟩
  | .hbm, ⟨25, _⟩ => ⟨S16x32, .f32⟩
  | .hbm, ⟨26, _⟩ => ⟨S16x32, .bf16⟩
  | .hbm, ⟨27, _⟩ => ⟨S512x16, .f32⟩
  | .hbm, ⟨28, _⟩ => ⟨S512x16, .bf16⟩
  | .hbm, ⟨29, _⟩ => ⟨S256x1, .f32⟩
  | .hbm, ⟨30, _⟩ => ⟨S256x1, .bf16⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S192x1000, .f32⟩
  | .hbm, ⟨37, _⟩ => ⟨S192x16000, .bf16⟩
  | .hbm, ⟨38, _⟩ => ⟨S192000x16, .bf16⟩
  | .hbm, ⟨39, _⟩ => ⟨S192000x32, .f32⟩
  | .hbm, ⟨40, _⟩ => ⟨S192x1000x32, .f32⟩
  | .hbm, ⟨41, _⟩ => ⟨S192x32x1000, .f32⟩
  | .hbm, ⟨42, _⟩ => ⟨S6144x1000, .f32⟩
  | .hbm, ⟨43, _⟩ => ⟨S6144x16000, .bf16⟩
  | .hbm, ⟨44, _⟩ => ⟨S192x32x1000x16, .bf16⟩
  | .hbm, ⟨45, _⟩ => ⟨S192000x512, .bf16⟩
  | .hbm, ⟨46, _⟩ => ⟨S192000x16, .f32⟩
  | .hbm, ⟨47, _⟩ => ⟨S192x1000x16, .f32⟩
  | .hbm, ⟨48, _⟩ => ⟨S192x16x1000, .f32⟩
  | .hbm, ⟨49, _⟩ => ⟨S3072x1000, .f32⟩
  | .hbm, ⟨50, _⟩ => ⟨S3072x16000, .bf16⟩
  | .hbm, ⟨51, _⟩ => ⟨S192x16x1000x16, .bf16⟩
  | .hbm, ⟨52, _⟩ => ⟨S192000x256, .bf16⟩
  | .hbm, ⟨53, _⟩ => ⟨S192000x1, .f32⟩
  | .hbm, ⟨54, _⟩ => ⟨S8x24x1000, .f32⟩
  | .local _ .vmem, ⟨0, _⟩ => ⟨S192x1000, .f32⟩
  | .local _ .vmem, ⟨1, _⟩ => ⟨S1000x3200, .bf16⟩
  | .local _ .vmem, ⟨2, _⟩ => ⟨S1000x3200, .bf16⟩
  | .local _ .vmem, ⟨3, _⟩ => ⟨S192x3200, .bf16⟩
  | .local _ .vmem, ⟨4, _⟩ => ⟨S192x3200, .bf16⟩
  | .local _ .vmem, ⟨5, _⟩ => ⟨S8000x16, .bf16⟩
  | .local _ .vmem, ⟨6, _⟩ => ⟨S8000x16, .bf16⟩
  | .local _ .vmem, ⟨7, _⟩ => ⟨S16x32, .bf16⟩
  | .local _ .vmem, ⟨8, _⟩ => ⟨S32, .f32⟩
  | .local _ .vmem, ⟨9, _⟩ => ⟨S8000x32, .f32⟩
  | .local _ .vmem, ⟨10, _⟩ => ⟨S8000x32, .f32⟩
  | .local _ .vmem, ⟨11, _⟩ => ⟨S6144x1000, .f32⟩
  | .local _ .vmem, ⟨12, _⟩ => ⟨S1000x128, .bf16⟩
  | .local _ .vmem, ⟨13, _⟩ => ⟨S1000x128, .bf16⟩
  | .local _ .vmem, ⟨14, _⟩ => ⟨S6144x128, .bf16⟩
  | .local _ .vmem, ⟨15, _⟩ => ⟨S6144x128, .bf16⟩
  | .local _ .vmem, ⟨16, _⟩ => ⟨S8000x512, .bf16⟩
  | .local _ .vmem, ⟨17, _⟩ => ⟨S8000x512, .bf16⟩
  | .local _ .vmem, ⟨18, _⟩ => ⟨S512x16, .bf16⟩
  | .local _ .vmem, ⟨19, _⟩ => ⟨S16, .f32⟩
  | .local _ .vmem, ⟨20, _⟩ => ⟨S16, .f32⟩
  | .local _ .vmem, ⟨21, _⟩ => ⟨S16, .f32⟩
  | .local _ .vmem, ⟨22, _⟩ => ⟨S8000x16, .f32⟩
  | .local _ .vmem, ⟨23, _⟩ => ⟨S8000x16, .f32⟩
  | .local _ .vmem, ⟨24, _⟩ => ⟨S3072x1000, .f32⟩
  | .local _ .vmem, ⟨25, _⟩ => ⟨S1000x640, .bf16⟩
  | .local _ .vmem, ⟨26, _⟩ => ⟨S1000x640, .bf16⟩
  | .local _ .vmem, ⟨27, _⟩ => ⟨S3072x640, .bf16⟩
  | .local _ .vmem, ⟨28, _⟩ => ⟨S3072x640, .bf16⟩
  | .local _ .vmem, ⟨29, _⟩ => ⟨S8000x256, .bf16⟩
  | .local _ .vmem, ⟨30, _⟩ => ⟨S8000x256, .bf16⟩
  | .local _ .vmem, ⟨31, _⟩ => ⟨S256x1, .bf16⟩
  | .local _ .vmem, ⟨32, _⟩ => ⟨S1, .f32⟩
  | .local _ .vmem, ⟨33, _⟩ => ⟨S8000x1, .f32⟩
  | .local _ .vmem, ⟨34, _⟩ => ⟨S8000x1, .f32⟩
  | _, _ => ⟨S8x24x1000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg5_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem5_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S192x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1000x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![1, 125], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S6144x1000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S6144x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![24], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![1, 25], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S3072x1000 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S1000x640 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S3072x640 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![24], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x1 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S1000x16_S16000 : S1000x16.ShapeCasts S16000
  bcast_S_S16000 : S_.BroadcastsInDim S16000 (![] : Fin 0 → Fin S16000.rank)
  bcast_S16000_S1x16000_1 : S16000.BroadcastsInDim S1x16000 (![1] : Fin 1 → Fin S1x16000.rank)
  bcast_S1x16000_S1000x16000_0_1 : S1x16000.BroadcastsInDim S1000x16000 (![0, 1] : Fin 2 → Fin S1000x16000.rank)
  bcast_S1000x1_S1000x16000_0_1 : S1000x1.BroadcastsInDim S1000x16000 (![0, 1] : Fin 2 → Fin S1000x16000.rank)
  transposes_S32x16_S16x32_1_0 : S32x16.Transposes [1, 0] S16x32
  bitsLt_bf16_f32 : FTy.bits .bf16 < FTy.bits .f32
  transposes_S16x512_S512x16_1_0 : S16x512.Transposes [1, 0] S512x16
  transposes_S1x256_S256x1_1_0 : S1x256.Transposes [1, 0] S256x1
  bcast_S_S16 : S_.BroadcastsInDim S16 (![] : Fin 0 → Fin S16.rank)
  shapeCasts_S8x24x1000x1_S192x1000 : S8x24x1000x1.ShapeCasts S192x1000
  inb_S192x1000_S192x1000_0_0 : ∀ a, (![0, 0] : Fin 2 → Nat) a + S192x1000.size a ≤ S192x1000.size a
  h_S192x1000 : 0 < S192x1000.numel
  shapeCasts_S192x1000_S192x1000 : S192x1000.ShapeCasts S192x1000
  inb_S1000x3200_S1000x3200_0_0 : ∀ a, (![0, 0] : Fin 2 → Nat) a + S1000x3200.size a ≤ S1000x3200.size a
  h_S1000x3200 : 0 < S1000x3200.numel
  shapeCasts_S1000x3200_S1000x3200 : S1000x3200.ShapeCasts S1000x3200
  inb_S192x3200_S192x3200_0_0 : ∀ a, (![0, 0] : Fin 2 → Nat) a + S192x3200.size a ≤ S192x3200.size a
  h_S192x3200 : 0 < S192x3200.numel
  packedbf16_S192x3200_S192x3200_0_0 : (Rect.unit (s := S192x3200) ![0, 0] S192x3200.size inb_S192x3200_S192x3200_0_0).PackedRows (EltTy.packing .bf16)
  shapeCasts_S192x16000_S192000x16 : S192x16000.ShapeCasts S192000x16
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  shapeCasts_S192000x32_S192x1000x32 : S192000x32.ShapeCasts S192x1000x32
  transposes_S192x1000x32_S192x32x1000_0_2_1 : S192x1000x32.Transposes [0, 2, 1] S192x32x1000
  shapeCasts_S192x32x1000_S6144x1000 : S192x32x1000.ShapeCasts S6144x1000
  inb_S6144x1000_S6144x1000_0_0 : ∀ a, (![0, 0] : Fin 2 → Nat) a + S6144x1000.size a ≤ S6144x1000.size a
  h_S6144x1000 : 0 < S6144x1000.numel
  shapeCasts_S6144x1000_S6144x1000 : S6144x1000.ShapeCasts S6144x1000
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S6144x128_S6144x128_0_0 : ∀ a, (![0, 0] : Fin 2 → Nat) a + S6144x128.size a ≤ S6144x128.size a
  h_S6144x128 : 0 < S6144x128.numel
  packedbf16_S6144x128_S6144x128_0_0 : (Rect.unit (s := S6144x128) ![0, 0] S6144x128.size inb_S6144x128_S6144x128_0_0).PackedRows (EltTy.packing .bf16)
  shapeCasts_S6144x16000_S192x32x1000x16 : S6144x16000.ShapeCasts S192x32x1000x16
  shapeCasts_S192x32x1000x16_S192000x512 : S192x32x1000x16.ShapeCasts S192000x512
  inb_S8000x512_S8000x512_0_0 : ∀ a, (![0, 0] : Fin 2 → Nat) a + S8000x512.size a ≤ S8000x512.size a
  h_S8000x512 : 0 < S8000x512.numel
  shapeCasts_S8000x512_S8000x512 : S8000x512.ShapeCasts S8000x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16_S16_0 : ∀ a, (![0] : Fin 1 → Nat) a + S16.size a ≤ S16.size a
  h_S16 : 0 < S16.numel
  shapeCasts_S16_S1x16 : S16.ShapeCasts S1x16
  broadcasts_S1x16_S8000x16 : S1x16.Broadcasts S8000x16
  shapeCasts_S16_S16 : S16.ShapeCasts S16
  shapeCasts_S192000x16_S192x1000x16 : S192000x16.ShapeCasts S192x1000x16
  transposes_S192x1000x16_S192x16x1000_0_2_1 : S192x1000x16.Transposes [0, 2, 1] S192x16x1000
  shapeCasts_S192x16x1000_S3072x1000 : S192x16x1000.ShapeCasts S3072x1000
  inb_S3072x1000_S3072x1000_0_0 : ∀ a, (![0, 0] : Fin 2 → Nat) a + S3072x1000.size a ≤ S3072x1000.size a
  h_S3072x1000 : 0 < S3072x1000.numel
  shapeCasts_S3072x1000_S3072x1000 : S3072x1000.ShapeCasts S3072x1000
  inb_S1000x640_S1000x640_0_0 : ∀ a, (![0, 0] : Fin 2 → Nat) a + S1000x640.size a ≤ S1000x640.size a
  h_S1000x640 : 0 < S1000x640.numel
  shapeCasts_S1000x640_S1000x640 : S1000x640.ShapeCasts S1000x640
  inb_S3072x640_S3072x640_0_0 : ∀ a, (![0, 0] : Fin 2 → Nat) a + S3072x640.size a ≤ S3072x640.size a
  h_S3072x640 : 0 < S3072x640.numel
  packedbf16_S3072x640_S3072x640_0_0 : (Rect.unit (s := S3072x640) ![0, 0] S3072x640.size inb_S3072x640_S3072x640_0_0).PackedRows (EltTy.packing .bf16)
  shapeCasts_S3072x16000_S192x16x1000x16 : S3072x16000.ShapeCasts S192x16x1000x16
  shapeCasts_S192x16x1000x16_S192000x256 : S192x16x1000x16.ShapeCasts S192000x256
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S192000x1_S8x24x1000 : S192000x1.ShapeCasts S8x24x1000
  dot_S192x1000_S1000x3200_S192x3200_1_0_0_1_n_n_wf : DotDims.WF S192x1000 S1000x3200 S192x3200 [1] [0] [0] [1] [] []
  dot_S8000x16_S16x32_S8000x32_1_0_0_1_n_n_wf : DotDims.WF S8000x16 S16x32 S8000x32 [1] [0] [0] [1] [] []
  dot_S6144x1000_S1000x128_S6144x128_1_0_0_1_n_n_wf : DotDims.WF S6144x1000 S1000x128 S6144x128 [1] [0] [0] [1] [] []
  dot_S8000x512_S512x16_S8000x16_1_0_0_1_n_n_wf : DotDims.WF S8000x512 S512x16 S8000x16 [1] [0] [0] [1] [] []
  dot_S3072x1000_S1000x640_S3072x640_1_0_0_1_n_n_wf : DotDims.WF S3072x1000 S1000x640 S3072x640 [1] [0] [0] [1] [] []
  dot_S8000x256_S256x1_S8000x1_1_0_0_1_n_n_wf : DotDims.WF S8000x256 S256x1 S8000x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S192x1000.size a ≤ S192x1000.size a
  hwx0_0 : ∀ i : grid0.Coords, EltTy.bits .f32 = 32 ∨ (Rect.block (s := S192x1000) S192x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x3200.size a ≤ S1000x16000.size a
  hwx0_1 : ∀ i : grid0.Coords, EltTy.bits .bf16 = 32 ∨ (Rect.block (s := S1000x16000) S1000x3200.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S192x3200.size a ≤ S192x16000.size a
  hwx0_2 : ∀ i : grid0.Coords, EltTy.bits .bf16 = 32 ∨ (Rect.block (s := S192x16000) S192x3200.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S192000x16.size a
  hwx1_0 : ∀ i : grid1.Coords, EltTy.bits .bf16 = 32 ∨ (Rect.block (s := S192000x16) S8000x16.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .bf16 = 32 ∨ (Rect.block (s := S16x32) S16x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x32.size a ≤ S192000x32.size a
  hwx1_3 : ∀ i : grid1.Coords, EltTy.bits .f32 = 32 ∨ (Rect.block (s := S192000x32) S8000x32.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S6144x1000.size a ≤ S6144x1000.size a
  hwx2_0 : ∀ i : grid2.Coords, EltTy.bits .f32 = 32 ∨ (Rect.block (s := S6144x1000) S6144x1000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S1000x16000.size a
  hwx2_1 : ∀ i : grid2.Coords, EltTy.bits .bf16 = 32 ∨ (Rect.block (s := S1000x16000) S1000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6144x128.size a ≤ S6144x16000.size a
  hwx2_2 : ∀ i : grid2.Coords, EltTy.bits .bf16 = 32 ∨ (Rect.block (s := S6144x16000) S6144x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x512.size a ≤ S192000x512.size a
  hwx3_0 : ∀ i : grid3.Coords, EltTy.bits .bf16 = 32 ∨ (Rect.block (s := S192000x512) S8000x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x16.size a ≤ S512x16.size a
  hwx3_1 : ∀ i : grid3.Coords, EltTy.bits .bf16 = 32 ∨ (Rect.block (s := S512x16) S512x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16.size a ≤ S16.size a
  hwx3_2 : ∀ i : grid3.Coords, EltTy.bits .f32 = 32 ∨ (Rect.block (s := S16) S16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16.size a ≤ S16.size a
  hwx3_3 : ∀ i : grid3.Coords, EltTy.bits .f32 = 32 ∨ (Rect.block (s := S16) S16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16.size a ≤ S16.size a
  hwx3_4 : ∀ i : grid3.Coords, EltTy.bits .f32 = 32 ∨ (Rect.block (s := S16) S16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x16.size a ≤ S192000x16.size a
  hwx3_5 : ∀ i : grid3.Coords, EltTy.bits .f32 = 32 ∨ (Rect.block (s := S192000x16) S8000x16.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S3072x1000.size a ≤ S3072x1000.size a
  hwx4_0 : ∀ i : grid4.Coords, EltTy.bits .f32 = 32 ∨ (Rect.block (s := S3072x1000) S3072x1000.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x640.size a ≤ S1000x16000.size a
  hwx4_1 : ∀ i : grid4.Coords, EltTy.bits .bf16 = 32 ∨ (Rect.block (s := S1000x16000) S1000x640.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3072x640.size a ≤ S3072x16000.size a
  hwx4_2 : ∀ i : grid4.Coords, EltTy.bits .bf16 = 32 ∨ (Rect.block (s := S3072x16000) S3072x640.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x256.size a ≤ S192000x256.size a
  hwx5_0 : ∀ i : grid5.Coords, EltTy.bits .bf16 = 32 ∨ (Rect.block (s := S192000x256) S8000x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x1.size a ≤ S256x1.size a
  hwx5_1 : ∀ i : grid5.Coords, EltTy.bits .bf16 = 32 ∨ (Rect.block (s := S256x1) S256x1.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1.size a ≤ S1.size a
  hwx5_2 : ∀ i : grid5.Coords, EltTy.bits .f32 = 32 ∨ (Rect.block (s := S1) S1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x1.size a ≤ S192000x1.size a
  hwx5_3 : ∀ i : grid5.Coords, EltTy.bits .f32 = 32 ∨ (Rect.block (s := S192000x1) S8000x1.size (cc5_transform_3 i) (hinb5_3 i)).WholeWords (EltTy.packing .f32)

variable [Facts₀]

def dot_S192x1000_S1000x3200_S192x3200_1_0_0_1_n_n : DotDims S192x1000 S1000x3200 S192x3200 where
  lhsContracting := [1]
  rhsContracting := [0]
  lhsNonContracting := [0]
  rhsNonContracting := [1]
  lhsBatch := []
  rhsBatch := []
  wf := dot_S192x1000_S1000x3200_S192x3200_1_0_0_1_n_n_wf
def dot_S8000x16_S16x32_S8000x32_1_0_0_1_n_n : DotDims S8000x16 S16x32 S8000x32 where
  lhsContracting := [1]
  rhsContracting := [0]
  lhsNonContracting := [0]
  rhsNonContracting := [1]
  lhsBatch := []
  rhsBatch := []
  wf := dot_S8000x16_S16x32_S8000x32_1_0_0_1_n_n_wf
def dot_S6144x1000_S1000x128_S6144x128_1_0_0_1_n_n : DotDims S6144x1000 S1000x128 S6144x128 where
  lhsContracting := [1]
  rhsContracting := [0]
  lhsNonContracting := [0]
  rhsNonContracting := [1]
  lhsBatch := []
  rhsBatch := []
  wf := dot_S6144x1000_S1000x128_S6144x128_1_0_0_1_n_n_wf
def dot_S8000x512_S512x16_S8000x16_1_0_0_1_n_n : DotDims S8000x512 S512x16 S8000x16 where
  lhsContracting := [1]
  rhsContracting := [0]
  lhsNonContracting := [0]
  rhsNonContracting := [1]
  lhsBatch := []
  rhsBatch := []
  wf := dot_S8000x512_S512x16_S8000x16_1_0_0_1_n_n_wf
def dot_S3072x1000_S1000x640_S3072x640_1_0_0_1_n_n : DotDims S3072x1000 S1000x640 S3072x640 where
  lhsContracting := [1]
  rhsContracting := [0]
  lhsNonContracting := [0]
  rhsNonContracting := [1]
  lhsBatch := []
  rhsBatch := []
  wf := dot_S3072x1000_S1000x640_S3072x640_1_0_0_1_n_n_wf
def dot_S8000x256_S256x1_S8000x1_1_0_0_1_n_n : DotDims S8000x256 S256x1 S8000x1 where
  lhsContracting := [1]
  rhsContracting := [0]
  lhsNonContracting := [0]
  rhsNonContracting := [1]
  lhsBatch := []
  rhsBatch := []
  wf := dot_S8000x256_S256x1_S8000x1_1_0_0_1_n_n_wf

abbrev win0_0 : Pipeline.Window sig grid0 :=
  Pipeline.Window.ofSpec (Memref.whole main_v13) S192x1000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1000x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S192x3200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S8000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S6144x1000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S6144x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v22) S8000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S512x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v23) S8000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v26) S3072x1000.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v2) S1000x640.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S3072x640.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v29) S8000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S256x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v30) S8000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S8x24x1000x1 : Shape := ⟨4, ![8, 24, 1000, 1]⟩
abbrev S1000x16 : Shape := ⟨2, ![1000, 16]⟩
abbrev S32x16 : Shape := ⟨2, ![32, 16]⟩
abbrev S32 : Shape := ⟨1, ![32]⟩
abbrev S16x512 : Shape := ⟨2, ![16, 512]⟩
abbrev S16 : Shape := ⟨1, ![16]⟩
abbrev S1x256 : Shape := ⟨2, ![1, 256]⟩
abbrev S1 : Shape := ⟨1, ![1]⟩
abbrev S192x1x1000 : Shape := ⟨3, ![192, 1, 1000]⟩
abbrev S_ : Shape := ⟨0, ![]⟩
abbrev S1000x16x1 : Shape := ⟨3, ![1000, 16, 1]⟩
abbrev S192x1x1000x16 : Shape := ⟨4, ![192, 1, 1000, 16]⟩
abbrev S192x1000x16 : Shape := ⟨3, ![192, 1000, 16]⟩
abbrev S192x1000x32 : Shape := ⟨3, ![192, 1000, 32]⟩
abbrev S1x1x32 : Shape := ⟨3, ![1, 1, 32]⟩
abbrev S192x32x1000 : Shape := ⟨3, ![192, 32, 1000]⟩
abbrev S192x32x1000x16 : Shape := ⟨4, ![192, 32, 1000, 16]⟩
abbrev S192x1000x512 : Shape := ⟨3, ![192, 1000, 512]⟩
abbrev S1x1x16 : Shape := ⟨3, ![1, 1, 16]⟩
abbrev S192x16x1000 : Shape := ⟨3, ![192, 16, 1000]⟩
abbrev S1x16x1 : Shape := ⟨3, ![1, 16, 1]⟩
abbrev S192x16x1000x16 : Shape := ⟨4, ![192, 16, 1000, 16]⟩
abbrev S192x1000x256 : Shape := ⟨3, ![192, 1000, 256]⟩
abbrev S192x1000x1 : Shape := ⟨3, ![192, 1000, 1]⟩
abbrev S1x1x1 : Shape := ⟨3, ![1, 1, 1]⟩
abbrev S8x24x1000 : Shape := ⟨3, ![8, 24, 1000]⟩

abbrev nBuf : Space → Nat
  | .hbm => 77
  | .vmem => 0
  | .smem => 0
  | _ => 0

abbrev bufTy : (tb : Table) → Fin (tcTables nBuf tb) → BufTy
  | .hbm, ⟨0, _⟩ => ⟨S8x24x1000x1, .f32⟩
  | .hbm, ⟨1, _⟩ => ⟨S1000x16, .i32⟩
  | .hbm, ⟨2, _⟩ => ⟨S32x16, .f32⟩
  | .hbm, ⟨3, _⟩ => ⟨S32, .f32⟩
  | .hbm, ⟨4, _⟩ => ⟨S16x512, .f32⟩
  | .hbm, ⟨5, _⟩ => ⟨S16, .f32⟩
  | .hbm, ⟨6, _⟩ => ⟨S1x256, .f32⟩
  | .hbm, ⟨7, _⟩ => ⟨S1, .f32⟩
  | .hbm, ⟨8, _⟩ => ⟨S16, .f32⟩
  | .hbm, ⟨9, _⟩ => ⟨S16, .f32⟩
  | .hbm, ⟨10, _⟩ => ⟨S192x1x1000, .f32⟩
  | .hbm, ⟨11, _⟩ => ⟨S_, .i32⟩
  | .hbm, ⟨12, _⟩ => ⟨S1000x16, .i32⟩
  | .hbm, ⟨13, _⟩ => ⟨S1000x16, .i1⟩
  | .hbm, ⟨14, _⟩ => ⟨S_, .i32⟩
  | .hbm, ⟨15, _⟩ => ⟨S1000x16, .i32⟩
  | .hbm, ⟨16, _⟩ => ⟨S1000x16, .i32⟩
  | .hbm, ⟨17, _⟩ => ⟨S1000x16, .i32⟩
  | .hbm, ⟨18, _⟩ => ⟨S1000x16x1, .i32⟩
  | .hbm, ⟨19, _⟩ => ⟨S192x1x1000x16, .f32⟩
  | .hbm, ⟨20, _⟩ => ⟨S192x1000x16, .f32⟩
  | .hbm, ⟨21, _⟩ => ⟨S192x1000x32, .f32⟩
  | .hbm, ⟨22, _⟩ => ⟨S1x1x32, .f32⟩
  | .hbm, ⟨23, _⟩ => ⟨S192x1000x32, .f32⟩
  | .hbm, ⟨24, _⟩ => ⟨S192x1000x32, .f32⟩
  | .hbm, ⟨25, _⟩ => ⟨S192x32x1000, .f32⟩
  | .hbm, ⟨26, _⟩ => ⟨S_, .f32⟩
  | .hbm, ⟨27, _⟩ => ⟨S192x32x1000, .f32⟩
  | .hbm, ⟨28, _⟩ => ⟨S192x32x1000, .f32⟩
  | .hbm, ⟨29, _⟩ => ⟨S_, .i32⟩
  | .hbm, ⟨30, _⟩ => ⟨S1000x16, .i32⟩
  | .hbm, ⟨31, _⟩ => ⟨S1000x16, .i1⟩
  | .hbm, ⟨32, _⟩ => ⟨S_, .i32⟩
  | .hbm, ⟨33, _⟩ => ⟨S1000x16, .i32⟩
  | .hbm, ⟨34, _⟩ => ⟨S1000x16, .i32⟩
  | .hbm, ⟨35, _⟩ => ⟨S1000x16, .i32⟩
  | .hbm, ⟨36, _⟩ => ⟨S1000x16x1, .i32⟩
  | .hbm, ⟨37, _⟩ => ⟨S192x32x1000x16, .f32⟩
  | .hbm, ⟨38, _⟩ => ⟨S192x1000x512, .f32⟩
  | .hbm, ⟨39, _⟩ => ⟨S192x1000x16, .f32⟩
  | .hbm, ⟨40, _⟩ => ⟨S1x1x16, .f32⟩
  | .hbm, ⟨41, _⟩ => ⟨S192x1000x16, .f32⟩
  | .hbm, ⟨42, _⟩ => ⟨S192x1000x16, .f32⟩
  | .hbm, ⟨43, _⟩ => ⟨S192x16x1000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S1x16x1, .f32⟩
  | .hbm, ⟨50, _⟩ => ⟨S192x16x1000, .f32⟩
  | .hbm, ⟨51, _⟩ => ⟨S192x16x1000, .f32⟩
  | .hbm, ⟨52, _⟩ => ⟨S1x16x1, .f32⟩
  | .hbm, ⟨53, _⟩ => ⟨S192x16x1000, .f32⟩
  | .hbm, ⟨54, _⟩ => ⟨S192x16x1000, .f32⟩
  | .hbm, ⟨55, _⟩ => ⟨S_, .f32⟩
  | .hbm, ⟨56, _⟩ => ⟨S192x16x1000, .f32⟩
  | .hbm, ⟨57, _⟩ => ⟨S192x16x1000, .f32⟩
  | .hbm, ⟨58, _⟩ => ⟨S_, .i32⟩
  | .hbm, ⟨59, _⟩ => ⟨S1000x16, .i32⟩
  | .hbm, ⟨60, _⟩ => ⟨S1000x16, .i1⟩
  | .hbm, ⟨61, _⟩ => ⟨S_, .i32⟩
  | .hbm, ⟨62, _⟩ => ⟨S1000x16, .i32⟩
  | .hbm, ⟨63, _⟩ => ⟨S1000x16, .i32⟩
  | .hbm, ⟨64, _⟩ => ⟨S1000x16, .i32⟩
  | .hbm, ⟨65, _⟩ => ⟨S1000x16x1, .i32⟩
  | .hbm, ⟨66, _⟩ => ⟨S192x16x1000x16, .f32⟩
  | .hbm, ⟨67, _⟩ => ⟨S192x1000x256, .f32⟩
  | .hbm, ⟨68, _⟩ => ⟨S192x1000x1, .f32⟩
  | .hbm, ⟨69, _⟩ => ⟨S1x1x1, .f32⟩
  | .hbm, ⟨70, _⟩ => ⟨S192x1000x1, .f32⟩
  | .hbm, ⟨71, _⟩ => ⟨S192x1000x1, .f32⟩
  | .hbm, ⟨72, _⟩ => ⟨S192x1x1000, .f32⟩
  | .hbm, ⟨73, _⟩ => ⟨S_, .f32⟩
  | .hbm, ⟨74, _⟩ => ⟨S192x1x1000, .f32⟩
  | .hbm, ⟨75, _⟩ => ⟨S192x1x1000, .f32⟩
  | .hbm, ⟨76, _⟩ => ⟨S8x24x1000, .f32⟩
  | _, _ => ⟨S8x24x1000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_cst : Ref sig .tc := ⟨.hbm, 55, rfl⟩
abbrev main_call1_v0 : Ref sig .tc := ⟨.hbm, 56, rfl⟩
abbrev main_v38 : Ref sig .tc := ⟨.hbm, 57, rfl⟩
abbrev main_c_3 : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call2_cst : Ref sig .tc := ⟨.hbm, 73, rfl⟩
abbrev main_call2_v0 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  shapeCasts_S8x24x1000x1_S192x1x1000 : S8x24x1000x1.ShapeCasts S192x1x1000
  bcast_S_S1000x16 : S_.BroadcastsInDim S1000x16 (![] : Fin 0 → Fin S1000x16.rank)
  bcast_S1000x16_S1000x16x1_0_1 : S1000x16.BroadcastsInDim S1000x16x1 (![0, 1] : Fin 2 → Fin S1000x16x1.rank)
  shapeCasts_S192x1x1000x16_S192x1000x16 : S192x1x1000x16.ShapeCasts S192x1000x16
  bcast_S32_S1x1x32_2 : S32.BroadcastsInDim S1x1x32 (![2] : Fin 1 → Fin S1x1x32.rank)
  bcast_S1x1x32_S192x1000x32_0_1_2 : S1x1x32.BroadcastsInDim S192x1000x32 (![0, 1, 2] : Fin 3 → Fin S192x1000x32.rank)
  transposes_S192x1000x32_S192x32x1000_0_2_1 : S192x1000x32.Transposes [0, 2, 1] S192x32x1000
  bcast_S_S192x32x1000 : S_.BroadcastsInDim S192x32x1000 (![] : Fin 0 → Fin S192x32x1000.rank)
  shapeCasts_S192x32x1000x16_S192x1000x512 : S192x32x1000x16.ShapeCasts S192x1000x512
  bcast_S16_S1x1x16_2 : S16.BroadcastsInDim S1x1x16 (![2] : Fin 1 → Fin S1x1x16.rank)
  bcast_S1x1x16_S192x1000x16_0_1_2 : S1x1x16.BroadcastsInDim S192x1000x16 (![0, 1, 2] : Fin 3 → Fin S192x1000x16.rank)
  transposes_S192x1000x16_S192x16x1000_0_2_1 : S192x1000x16.Transposes [0, 2, 1] S192x16x1000
  bcast_S_S16 : S_.BroadcastsInDim S16 (![] : Fin 0 → Fin S16.rank)
  bcast_S16_S1x16x1_1 : S16.BroadcastsInDim S1x16x1 (![1] : Fin 1 → Fin S1x16x1.rank)
  bcast_S1x16x1_S192x16x1000_0_1_2 : S1x16x1.BroadcastsInDim S192x16x1000 (![0, 1, 2] : Fin 3 → Fin S192x16x1000.rank)
  bcast_S_S192x16x1000 : S_.BroadcastsInDim S192x16x1000 (![] : Fin 0 → Fin S192x16x1000.rank)
  shapeCasts_S192x16x1000x16_S192x1000x256 : S192x16x1000x16.ShapeCasts S192x1000x256
  bcast_S1_S1x1x1_2 : S1.BroadcastsInDim S1x1x1 (![2] : Fin 1 → Fin S1x1x1.rank)
  bcast_S1x1x1_S192x1000x1_0_1_2 : S1x1x1.BroadcastsInDim S192x1000x1 (![0, 1, 2] : Fin 3 → Fin S192x1000x1.rank)
  transposes_S192x1000x1_S192x1x1000_0_2_1 : S192x1000x1.Transposes [0, 2, 1] S192x1x1000
  bcast_S_S192x1x1000 : S_.BroadcastsInDim S192x1x1000 (![] : Fin 0 → Fin S192x1x1000.rank)
  shapeCasts_S192x1x1000_S8x24x1000 : S192x1x1000.ShapeCasts S8x24x1000
  gather_S192x1x1000_S1000x16x1_S192x1x1000x16_01_2_n_n_2_2_19211_wf : GatherDims.WF S192x1x1000 S1000x16x1 S192x1x1000x16 [0, 1] [2] [] [2] [] 2 ![192, 1, 1]
  dot_S192x1000x16_S32x16_S192x1000x32_2_1_01_0_n_n_wf : DotDims.WF S192x1000x16 S32x16 S192x1000x32 [2] [1] [0, 1] [0] [] []
  gather_S192x32x1000_S1000x16x1_S192x32x1000x16_01_2_n_n_2_2_192321_wf : GatherDims.WF S192x32x1000 S1000x16x1 S192x32x1000x16 [0, 1] [2] [] [2] [] 2 ![192, 32, 1]
  dot_S192x1000x512_S16x512_S192x1000x16_2_1_01_0_n_n_wf : DotDims.WF S192x1000x512 S16x512 S192x1000x16 [2] [1] [0, 1] [0] [] []
  gather_S192x16x1000_S1000x16x1_S192x16x1000x16_01_2_n_n_2_2_192161_wf : GatherDims.WF S192x16x1000 S1000x16x1 S192x16x1000x16 [0, 1] [2] [] [2] [] 2 ![192, 16, 1]
  dot_S192x1000x256_S1x256_S192x1000x1_2_1_01_0_n_n_wf : DotDims.WF S192x1000x256 S1x256 S192x1000x1 [2] [1] [0, 1] [0] [] []

variable [Facts₀]

def gather_S192x1x1000_S1000x16x1_S192x1x1000x16_01_2_n_n_2_2_19211 : GatherDims S192x1x1000 S1000x16x1 S192x1x1000x16 where
  offsetDims := [0, 1]
  collapsedSliceDims := [2]
  operandBatchingDims := []
  startIndicesBatchingDims := []
  startIndexMap := [2]
  indexVectorDim := 2
  sliceSizes := ![192, 1, 1]
  wf := gather_S192x1x1000_S1000x16x1_S192x1x1000x16_01_2_n_n_2_2_19211_wf
def dot_S192x1000x16_S32x16_S192x1000x32_2_1_01_0_n_n : DotDims S192x1000x16 S32x16 S192x1000x32 where
  lhsContracting := [2]
  rhsContracting := [1]
  lhsNonContracting := [0, 1]
  rhsNonContracting := [0]
  lhsBatch := []
  rhsBatch := []
  wf := dot_S192x1000x16_S32x16_S192x1000x32_2_1_01_0_n_n_wf
def gather_S192x32x1000_S1000x16x1_S192x32x1000x16_01_2_n_n_2_2_192321 : GatherDims S192x32x1000 S1000x16x1 S192x32x1000x16 where
  offsetDims := [0, 1]
  collapsedSliceDims := [2]
  operandBatchingDims := []
  startIndicesBatchingDims := []
  startIndexMap := [2]
  indexVectorDim := 2
  sliceSizes := ![192, 32, 1]
  wf := gather_S192x32x1000_S1000x16x1_S192x32x1000x16_01_2_n_n_2_2_192321_wf
def dot_S192x1000x512_S16x512_S192x1000x16_2_1_01_0_n_n : DotDims S192x1000x512 S16x512 S192x1000x16 where
  lhsContracting := [2]
  rhsContracting := [1]
  lhsNonContracting := [0, 1]
  rhsNonContracting := [0]
  lhsBatch := []
  rhsBatch := []
  wf := dot_S192x1000x512_S16x512_S192x1000x16_2_1_01_0_n_n_wf
def gather_S192x16x1000_S1000x16x1_S192x16x1000x16_01_2_n_n_2_2_192161 : GatherDims S192x16x1000 S1000x16x1 S192x16x1000x16 where
  offsetDims := [0, 1]
  collapsedSliceDims := [2]
  operandBatchingDims := []
  startIndicesBatchingDims := []
  startIndexMap := [2]
  indexVectorDim := 2
  sliceSizes := ![192, 16, 1]
  wf := gather_S192x16x1000_S1000x16x1_S192x16x1000x16_01_2_n_n_2_2_192161_wf
def dot_S192x1000x256_S1x256_S192x1000x1_2_1_01_0_n_n : DotDims S192x1000x256 S1x256 S192x1000x1 where
  lhsContracting := [2]
  rhsContracting := [1]
  lhsNonContracting := [0, 1]
  rhsNonContracting := [0]
  lhsBatch := []
  rhsBatch := []
  wf := dot_S192x1000x256_S1x256_S192x1000x1_2_1_01_0_n_n_wf

class Facts : Prop extends Facts₀ where

variable [Facts]
-- ==== Proof.KSpec.lean ====
/-
  The kernel's value, stage by stage, as pure functions over the extended reals.

  Each of the three stages of the network gathers, for every node, the features of its 16 neighbours and applies a
  dense layer to the gathered row. The kernel gathers by a matrix product with a one-hot selection matrix
  `oneHotM` (column `n·16 + k` has its single 1 in the row of neighbour `k` of node `n`, the neighbour ids clipped
  into `[0, 999]`); a pallas_call computes the product block by block (`gmm`), and a second pallas_call applies the
  dense layer, bias and relu (`denseA`, `denseC`; `denseB` also applies the batch-norm scale and shift). Between
  the calls only row-major reshapes and one transposition move the data.
-/
import proofs.«410030_j78323023610545_3_alg».proof.Proof.Gen.KernelIdeal
import Idealize.ShloMosaic.Lib.ValueIdx
import Idealize.ShloMosaic.PureOps.Ideal

noncomputable section

namespace Cert.Bridge

open Idealize.ShloMosaic Idealize.ShloMosaic.ValueIdx Cert.KernelIdeal Cert.KernelIdeal.Facts₀ Cert.KernelIdeal.Facts

/-- The neighbour ids, flattened to one row of 16000 and clipped into `[0, 999]`. -/
def clipped (nb : IVec S1000x16 32) : IVec S16000 32 :=
  minsi (broadcastInDim S16000 ![] bcast_S_S16000 (id (constantI S_ 32 999#32)))
    (maxsi (broadcastInDim S16000 ![] bcast_S_S16000 (id (constantI S_ 32 0#32))) (shapeCast _ nb shapeCasts_S1000x16_S16000))

/-- The selection matrix: entry `(r, j)` is 1 when the clipped id in slot `j` is `r`, else 0. -/
def oneHotM (nb : IVec S1000x16 32) : FVec Ideal S1000x16000 .bf16 :=
  uitofp (F := Ideal) .bf16 (cmpi .eq
    (broadcastInDim S1000x16000 ![0, 1] bcast_S1x16000_S1000x16000_0_1 (broadcastInDim S1x16000 ![1] bcast_S16000_S1x16000_1 (clipped nb)))
    (broadcastInDim S1000x16000 ![0, 1] bcast_S1000x1_S1000x16000_0_1 (iotaInDim S1000x1 32 0)))

/-- The batch-norm scale `gamma / sqrt(1 + eps)`, the constant kept as the program's own literal. -/
def bnScale (gamma : FVec Ideal S16 .f32) : FVec Ideal S16 .f32 :=
  Host.divf gamma (broadcastInDim S16 ![] bcast_S_S16 (id (Host.sqrt (constant (F := Ideal) S_ .f32 0x3F800054#32))))

/-- A layer's weights as the kernel passes them: transposed (the format change is the identity on the extended reals). -/
def wT1 (W : FVec Ideal S32x16 .f32) : FVec Ideal S16x32 .bf16 := truncf .bf16 (transpose S16x32 [1, 0] W transposes_S32x16_S16x32_1_0) bitsLt_bf16_f32
def wT2 (W : FVec Ideal S16x512 .f32) : FVec Ideal S512x16 .bf16 := truncf .bf16 (transpose S512x16 [1, 0] W transposes_S16x512_S512x16_1_0) bitsLt_bf16_f32
def wT3 (W : FVec Ideal S1x256 .f32) : FVec Ideal S256x1 .bf16 := truncf .bf16 (transpose S256x1 [1, 0] W transposes_S1x256_S256x1_1_0) bitsLt_bf16_f32

/-- The gather as a matrix product: rows of features times the selection matrix, `R` rows. -/
def gmm (R : Nat) (x : (⟨2, ![R, 1000]⟩ : Shape).Idx → EReal) (M : FVec Ideal S1000x16000 .bf16) : (⟨2, ![R, 16000]⟩ : Shape).Idx → EReal :=
  fun i => ∑ k : Fin 1000, x (ix2 (i 0) k) * M (ix2 k (i 1))

/-- Dense layer 1 on every gathered row: 16 inputs, 32 outputs, bias, relu. -/
def denseA (h : FVec Ideal S192000x16 .bf16) (w : FVec Ideal S16x32 .bf16) (b : FVec Ideal S32 .f32) : FVec Ideal S192000x32 .f32 :=
  fun i => max ((∑ k : Fin 16, h (ix2 (i 0) k) * w (ix2 k (i 1))) + b (ix1 (i 1))) (Ideal.ofBits .f32 0x00000000#32)

/-- Dense layer 2: 512 inputs, 16 outputs, bias, then the batch-norm scale and shift, relu. -/
def denseB (h : FVec Ideal S192000x512 .bf16) (w : FVec Ideal S512x16 .bf16) (b s be : FVec Ideal S16 .f32) : FVec Ideal S192000x16 .f32 :=
  fun i => max (((∑ k : Fin 512, h (ix2 (i 0) k) * w (ix2 k (i 1))) + b (ix1 (i 1))) * s (ix1 (i 1)) + be (ix1 (i 1))) (Ideal.ofBits .f32 0x00000000#32)

/-- Dense layer 3: 256 inputs, one output, bias, relu. -/
def denseC (h : FVec Ideal S192000x256 .bf16) (w : FVec Ideal S256x1 .bf16) (b : FVec Ideal S1 .f32) : FVec Ideal S192000x1 .f32 :=
  fun i => max ((∑ k : Fin 256, h (ix2 (i 0) k) * w (ix2 k (i 1))) + b (ix1 (i 1))) (Ideal.ofBits .f32 0x00000000#32)

/-- Stage 1 of the kernel: from the input sequence to the first hidden features `[192, 32, 1000]`. -/
def kstage1 (x0 : FVec Ideal S8x24x1000x1 .f32) (nb : IVec S1000x16 32) (W1 : FVec Ideal S32x16 .f32) (b1 : FVec Ideal S32 .f32) :
    FVec Ideal S192x32x1000 .f32 :=
  transpose S192x32x1000 [0, 2, 1]
    (shapeCast _
      (denseA (shapeCast _ (gmm 192 (shapeCast _ x0 shapeCasts_S8x24x1000x1_S192x1000) (oneHotM nb)) shapeCasts_S192x16000_S192000x16) (wT1 W1) b1)
      shapeCasts_S192000x32_S192x1000x32)
    transposes_S192x1000x32_S192x32x1000_0_2_1

/-- Stage 2: from `[192, 32, 1000]` to `[192, 16, 1000]`. -/
def kstage2 (A : FVec Ideal S192x32x1000 .f32) (nb : IVec S1000x16 32) (W2 : FVec Ideal S16x512 .f32) (b2 gamma beta : FVec Ideal S16 .f32) :
    FVec Ideal S192x16x1000 .f32 :=
  transpose S192x16x1000 [0, 2, 1]
    (shapeCast _
      (denseB (shapeCast _ (shapeCast _ (gmm 6144 (shapeCast _ A shapeCasts_S192x32x1000_S6144x1000) (oneHotM nb)) shapeCasts_S6144x16000_S192x32x1000x16)
          shapeCasts_S192x32x1000x16_S192000x512) (wT2 W2) b2 (bnScale gamma) beta)
      shapeCasts_S192000x16_S192x1000x16)
    transposes_S192x1000x16_S192x16x1000_0_2_1

/-- Stage 3: from `[192, 16, 1000]` to the result `[8, 24, 1000]`. -/
def kstage3 (A : FVec Ideal S192x16x1000 .f32) (nb : IVec S1000x16 32) (W3 : FVec Ideal S1x256 .f32) (b3 : FVec Ideal S1 .f32) :
    FVec Ideal S8x24x1000 .f32 :=
  shapeCast _
    (denseC (shapeCast _ (shapeCast _ (gmm 3072 (shapeCast _ A shapeCasts_S192x16x1000_S3072x1000) (oneHotM nb)) shapeCasts_S3072x16000_S192x16x1000x16)
        shapeCasts_S192x16x1000x16_S192000x256) (wT3 W3) b3)
    shapeCasts_S192000x1_S8x24x1000

/-- The node a neighbour slot reads when its id is not negative: the id, capped at the last node. -/
def node (nb : IVec S1000x16 32) (n : Fin 1000) (k : Fin 16) : Fin 1000 :=
  ⟨min (nb (ix2 n k)).toInt.toNat 999, by omega⟩

end Cert.Bridge

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.Final0.lean ====
/-
  Region 0 (the gather of stage 1): after all five grid points the output array is the whole product of the features
  with the selection matrix; each point writes one block of 3200 columns.

  At grid point `t` the body multiplies the whole feature block `[192, 1000]` with block `t` of the selection matrix,
  columns `3200·t … 3200·t + 3200 - 1`, and the result is written back to the same columns of the output. Entry `(p, q)` of
  that block is `∑ k, x[p, k] · M[k, 3200·t + q]`, which is entry `(p, 3200·t + q)` of the whole product; the 5 column blocks
  tile the `16000` columns, so the array ends holding the whole product.
-/
import proofs.«410030_j78323023610545_3_alg».proof.Proof.Gen.KernelIdeal.Frame
import proofs.«410030_j78323023610545_3_alg».proof.Proof.KSpec
import proofs.«410030_j78323023610545_3_alg».proof.Proof.LibPlainMatmul
import Idealize.ShloMosaic.Lib.Pipeline.Value
import Idealize.ShloMosaic.PureOps.Ideal.Laws

noncomputable section
set_option maxRecDepth 16384

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-- The offsets of a whole-block access, however spelt, are zero on both axes. -/
theorem zeroOffsets0 : (![0, 0] : Fin 2 → Nat) = fun _ => 0 := funext fun a => by fin_cases a <;> rfl

/-- The body's arithmetic at entry `(p, q)` of its block: the row `p` of the features times the column `q` of the
    selection block (both format changes are the identity on the extended reals, the accumulator starts at zero). -/
theorem blockProduct0_apply (x0 : Vec Ideal S192x1000 .f32) (x1 : Vec Ideal S1000x3200 .bf16) (p : Fin 192) (q : Fin 3200) :
    k0_pay1 (F := Ideal) x0 x1 (ix2 p q) = ∑ k : Fin 1000, x0 (ix2 p k) * x1 (ix2 k q) := by
  unfold k0_pay1
  simp only [shapeCast_self]
  exact Cert.Lib.matmul_plain_apply (φ₁ := .bf16) (φ₂ := .bf16) dot_S192x1000_S1000x3200_S192x3200_1_0_0_1_n_n rfl rfl rfl rfl rfl rfl none
    (truncf .bf16 x0 Gen.bitsLt_bf16_f32) x1 p q

/-- The whole product at an index of the output array. -/
theorem wholeProduct0_apply (x : S192x1000.Idx → EReal) (M : S1000x16000.Idx → EReal) (i : S192x16000.Idx) :
    Cert.Bridge.gmm 192 x M i = ∑ k : Fin 1000, x (ix2 (i 0) k) * M (ix2 k (i 1)) := rfl

/-- The block indices at grid point `t`: the features' block is always block `(0, 0)`; the selection matrix's and the
    output's are block `(0, t)` (decided over the 5 points). -/
theorem blockIndex0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What grid point `t` writes back is block `t` of the whole product of the arrays as the region finds them. -/
theorem flushed0_eq (c : Dev nD) (t : Fin cfg0.N) :
    (dat0 (F := Ideal) V c).flushed 2 t
      = ((cfg0.win 2).blk t).view.read (Elt Ideal) (Cert.Bridge.gmm 192 (V c main_v13) (V c main_v2)) := by
  show (cfg0.win 2).cut (grid0.coords t) ((dat0 V c).after 2 t) = _
  rw [after0_2]
  unfold out0_2
  rw [View.canon_unit_zero zeroOffsets0]
  simp only [View.ld_unit_zero (S := S192x1000) zeroOffsets0, View.ld_unit_zero (S := S1000x3200) zeroOffsets0]
  obtain ⟨e0, e1, e2, e3, e4, e5⟩ := blockIndex0 t
  refine funext fun (j : S192x3200.Idx) => ?_
  obtain ⟨p, q, rfl⟩ : ∃ (p : Fin 192) (q : Fin 3200), j = ix2 p q := ⟨j 0, j 1, eq_ix2 j⟩
  refine (blockProduct0_apply _ _ p q).trans ?_
  refine Eq.trans ?_ (wholeProduct0_apply (V c main_v13) (V c main_v2) (((cfg0.win 2).blk t).view.emb (ix2 p q))).symm
  refine Finset.sum_congr rfl fun k _ => ?_
  -- entry (p, k) of the features' block is entry (p, k) of the features
  have h0 : @Eq EReal (iblk0 V c 0 t (ix2 p k))
      (V c main_v13 (ix2 ((((cfg0.win 2).blk t).view.emb (ix2 p q)) 0) k)) := by
    unfold iblk0
    show @Eq EReal (V c main_v13 (((cfg0.win 0).blk t).view.emb (ix2 p k))) _
    refine congrArg _ (funext fun a => Fin.ext ?_)
    match a with
    | ⟨0, _⟩ => show win0_0.index t (0 : Fin 2) * 192 + 1 * p.val = win0_2.index t (0 : Fin 2) * 192 + 1 * p.val; omega
    | ⟨1, _⟩ => show win0_0.index t (1 : Fin 2) * 1000 + 1 * k.val = k.val; omega
  -- entry (k, q) of the selection block is entry (k, 3200·t + q) of the selection matrix
  have h1 : @Eq EReal (iblk0 V c 1 t (ix2 k q))
      (V c main_v2 (ix2 k ((((cfg0.win 2).blk t).view.emb (ix2 p q)) 1))) := by
    unfold iblk0
    show @Eq EReal (V c main_v2 (((cfg0.win 1).blk t).view.emb (ix2 k q))) _
    refine congrArg _ (funext fun a => Fin.ext ?_)
    match a with
    | ⟨0, _⟩ => show win0_1.index t (0 : Fin 2) * 1000 + 1 * k.val = k.val; omega
    | ⟨1, _⟩ => show win0_1.index t (1 : Fin 2) * 3200 + 1 * q.val = win0_2.index t (1 : Fin 2) * 3200 + 1 * q.val; omega
  exact congrArg₂ (fun (a b : EReal) => a * b) h0 h1

/-- An index of the output array is in point `t`'s block iff each coordinate is in the block's range on its axis. -/
theorem mem_block0 (t : Fin cfg0.N) (i : S192x16000.Idx) :
    i ∈ ((cfg0.win 2).blk t).view.set ↔ ∀ a : Fin 2, win0_2.index t a * S192x3200.size a ≤ (i a).val
      ∧ (i a).val < win0_2.index t a * S192x3200.size a + S192x3200.size a := by
  show i ∈ ((View.whole main_v14).slice (win0_2.rect t)).set ↔ _
  rw [View.set_slice_whole, Rect.mem_set_unit]
  exact Iff.rfl

/-- Every index of the output array is in some point's block: column `c` is in block `c / 3200`. -/
theorem covered0 (i : S192x16000.Idx) :
    ∃ t : Fin cfg0.N, (cfg0.win 2).flush t = true ∧ i ∈ ((cfg0.win 2).blk t).view.set := by
  have hi0 : (i 0).val < 192 := (i 0).isLt
  have hi1 : (i 1).val < 16000 := (i 1).isLt
  have hN : cfg0.N = 5 := N_0
  have ht : (i 1).val / 3200 < cfg0.N := by rw [hN]; omega
  refine ⟨⟨(i 1).val / 3200, ht⟩, flush0_2 _, ?_⟩
  obtain ⟨e0, e1, e2, e3, e4, e5⟩ := blockIndex0 ⟨(i 1).val / 3200, ht⟩
  have e5' : win0_2.index ⟨(i 1).val / 3200, ht⟩ (1 : Fin 2) = (i 1).val / 3200 := e5
  rw [mem_block0]
  intro a
  match a with
  | ⟨0, _⟩ =>
    show win0_2.index _ (0 : Fin 2) * 192 ≤ (i 0).val ∧ (i 0).val < win0_2.index _ (0 : Fin 2) * 192 + 192
    omega
  | ⟨1, _⟩ =>
    show win0_2.index _ (1 : Fin 2) * 3200 ≤ (i 1).val ∧ (i 1).val < win0_2.index _ (1 : Fin 2) * 3200 + 3200
    omega

theorem final0 (c : Dev nD) : (dat0 (F := Ideal) V c).arrAt 2 cfg0.N = Cert.Bridge.gmm 192 (V c main_v13) (V c main_v2) :=
  (dat0 (F := Ideal) V c).arrAt_eq_of_cover 2 (Cert.Bridge.gmm 192 (V c main_v13) (V c main_v2))
    (fun t _ => flushed0_eq V c t) covered0

end Cert.KernelIdeal.Final

end
-- ==== Proof.Final1.lean ====
/-
  Region 1 (dense layer 1): after all 24 grid points the output array is the layer applied to every gathered row;
  each point writes one block of 8000 rows.
-/
import proofs.«410030_j78323023610545_3_alg».proof.Proof.Gen.KernelIdeal.Frame
import proofs.«410030_j78323023610545_3_alg».proof.Proof.KSpec
import proofs.«410030_j78323023610545_3_alg».proof.Proof.LibPlainMatmul
import Idealize.ShloMosaic.Lib.Pipeline.Value
import Idealize.ShloMosaic.PureOps.Ideal.Laws

noncomputable section
set_option maxRecDepth 16384

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

namespace Region1

theorem zeros2 : (![0, 0] : Fin 2 → Nat) = fun _ => 0 := funext fun a => by fin_cases a <;> rfl
theorem zeros1 : (![0] : Fin 1 → Nat) = fun _ => 0 := funext fun a => by fin_cases a; rfl

/-- The bias row, viewed as a one-row matrix and repeated down the rows, read at `(p, q)` is entry `q`. -/
theorem bias_apply (b : Vec Ideal S32 .f32) (p : Fin 8000) (q : Fin 32) :
    broadcastTo S8000x32 (shapeCast S1x32 b Facts₀.shapeCasts_S32_S1x32) Facts₀.broadcasts_S1x32_S8000x32 (ix2 p q) = b (ix1 q) := by
  refine (broadcastTo_apply _ _ (ix2 p q) (ix2 (⟨0, Nat.one_pos⟩ : Fin 1) q) fun a => ?_).trans ?_
  · match a with
    | ⟨0, _⟩ => rfl
    | ⟨1, _⟩ => rfl
  · refine shapeCast_apply _ _ _ (ix1 q) ?_
    rw [Shape.rowMajor_val_one, Shape.rowMajor_val_two]
    show q.val = 0 * 32 + q.val
    omega

/-- The body at `(p, q)`: row `p` of the block times column `q` of the weights, plus the bias, clamped below at zero. -/
theorem pay_apply (x0 : Vec Ideal S8000x16 .bf16) (x1 : Vec Ideal S16x32 .bf16) (x2 : Vec Ideal S32 .f32) (p : Fin 8000) (q : Fin 32) :
    k1_pay1 x0 x1 x2 (ix2 p q)
      = max ((∑ k : Fin 16, x0 (ix2 p k) * x1 (ix2 k q)) + x2 (ix1 q)) (Ideal.ofBits .f32 0x00000000#32) := by
  unfold k1_pay1
  rw [maximumf_apply, addf_apply, broadcast_apply, shapeCast_self, shapeCast_self, bias_apply]
  exact congrArg₂ max (congrArg (· + x2 (ix1 q))
    (Cert.Lib.matmul_plain_apply dot_S8000x16_S16x32_S8000x32_1_0_0_1_n_n rfl rfl rfl rfl rfl rfl none x0 x1 p q)) rfl

/-- The block index maps, decided once over the 24 points: the gathered rows' block moves with the output's block,
    every other block index is zero, and the output's block row stays below 24. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (1 : Fin 2) = 0
    ∧ win1_3.index t (0 : Fin 2) ≤ 23 :=
  (by decide +kernel : ∀ t : Fin grid1.N, _)

/-- Every block row of the output is some point's. -/
theorem idx_onto : ∀ b : Fin 24, ∃ t : Fin cfg1.N, win1_3.index t = ![b.val, 0] :=
  (by decide +kernel : ∀ b : Fin 24, ∃ t : Fin grid1.N, win1_3.index t = ![b.val, 0])

/-- The gathered rows' block at point `t`, read at `(p, k)`, is the array at row `8000·(block row) + p`. -/
theorem rows_apply (c : Dev nD) (t : Fin cfg1.N) (p : Fin 8000) (k : Fin 16) (r : Fin 192000)
    (hr : r.val = win1_3.index t (0 : Fin 2) * 8000 + 1 * p.val) :
    iblk1 V c 0 t (ix2 p k) = V c main_v15 (ix2 r k) := by
  obtain ⟨e0, e1, -⟩ := idx_facts t
  unfold iblk1
  show V c main_v15 (((cfg1.win 0).blk t).view.emb (ix2 p k)) = V c main_v15 (ix2 r k)
  refine congrArg (V c main_v15) (funext fun a => Fin.ext ?_)
  match a with
  | ⟨0, _⟩ => show win1_0.index t (0 : Fin 2) * 8000 + 1 * p.val = r.val; omega
  | ⟨1, _⟩ => show win1_0.index t (1 : Fin 2) * 16 + 1 * k.val = k.val; omega

/-- The weights' block is the whole weight matrix at every point. -/
theorem weights_apply (c : Dev nD) (t : Fin cfg1.N) (k : Fin 16) (q : Fin 32) :
    iblk1 V c 1 t (ix2 k q) = V c main_v4 (ix2 k q) := by
  obtain ⟨-, -, e2, e3, -⟩ := idx_facts t
  unfold iblk1
  show V c main_v4 (((cfg1.win 1).blk t).view.emb (ix2 k q)) = V c main_v4 (ix2 k q)
  refine congrArg (V c main_v4) (funext fun a => Fin.ext ?_)
  match a with
  | ⟨0, _⟩ => show win1_1.index t (0 : Fin 2) * 16 + 1 * k.val = k.val; omega
  | ⟨1, _⟩ => show win1_1.index t (1 : Fin 2) * 32 + 1 * q.val = q.val; omega

/-- The bias's block is the whole bias at every point. -/
theorem bias_blk_apply (c : Dev nD) (t : Fin cfg1.N) (q : Fin 32) :
    iblk1 V c 2 t (ix1 q) = V c main_arg3 (ix1 q) := by
  obtain ⟨-, -, -, -, e4, -⟩ := idx_facts t
  unfold iblk1
  show V c main_arg3 (((cfg1.win 2).blk t).view.emb (ix1 q)) = V c main_arg3 (ix1 q)
  refine congrArg (V c main_arg3) (funext fun a => Fin.ext ?_)
  match a with
  | ⟨0, _⟩ => show win1_2.index t (0 : Fin 1) * 32 + 1 * q.val = q.val; omega

/-- WHAT POINT `t` WRITES BACK is block `t` of the layer applied to every gathered row. -/
theorem block_eq (c : Dev nD) (t : Fin cfg1.N) :
    (dat1 (F := Ideal) V c).flushed 3 t
      = ((cfg1.win 3).blk t).view.read (Elt Ideal) (Cert.Bridge.denseA (V c main_v15) (V c main_v4) (V c main_arg3)) := by
  show (cfg1.win 3).cut (grid1.coords t) ((dat1 (F := Ideal) V c).after 3 t) = _
  rw [after1_3]
  unfold out1_3
  rw [View.canon_unit_zero zeros2]
  simp only [View.ld_unit_zero (S := S8000x16) zeros2, View.ld_unit_zero (S := S16x32) zeros2, View.ld_unit_zero (S := S32) zeros1]
  funext j
  obtain ⟨p, q, rfl⟩ : ∃ (p : Fin 8000) (q : Fin 32), j = ix2 p q := ⟨j 0, j 1, eq_ix2 j⟩
  show k1_pay1 (iblk1 V c 0 t) (iblk1 V c 1 t) (iblk1 V c 2 t) (ix2 p q)
    = Cert.Bridge.denseA (V c main_v15) (V c main_v4) (V c main_arg3) (((cfg1.win 3).blk t).view.emb (ix2 p q))
  rw [pay_apply]
  obtain ⟨-, -, -, -, -, e5, -⟩ := idx_facts t
  have h0 : ((((cfg1.win 3).blk t).view.emb (ix2 p q)) 0).val = win1_3.index t (0 : Fin 2) * 8000 + 1 * p.val := rfl
  have h1 : ((((cfg1.win 3).blk t).view.emb (ix2 p q)) 1) = q :=
    Fin.ext (show win1_3.index t (1 : Fin 2) * 32 + 1 * q.val = q.val by omega)
  unfold Cert.Bridge.denseA
  refine congrArg₂ max (congrArg₂ (· + ·) (Finset.sum_congr rfl fun k _ => congrArg₂ (· * ·) ?_ ?_) ?_) rfl
  · exact rows_apply V c t p k _ h0
  · rw [h1]; exact weights_apply V c t k q
  · rw [h1]; exact bias_blk_apply V c t q

/-- An index of the output array is in point `t`'s block iff each coordinate is in the block's range on its axis. -/
theorem mem_block (t : Fin cfg1.N) (i : S192000x32.Idx) :
    i ∈ ((cfg1.win 3).blk t).view.set
      ↔ ∀ a : Fin 2, win1_3.index t a * S8000x32.size a ≤ (i a).val ∧ (i a).val < win1_3.index t a * S8000x32.size a + S8000x32.size a := by
  show i ∈ ((View.whole main_v16).slice (win1_3.rect t)).set ↔ _
  rw [View.set_slice_whole, Rect.mem_set_unit]
  exact Iff.rfl

/-- The 24 blocks of 8000 rows tile the output array: row `r` is in the block of the point whose block row is `r / 8000`. -/
theorem cover (i : S192000x32.Idx) :
    ∃ t : Fin cfg1.N, (cfg1.win 3).flush t = true ∧ i ∈ ((cfg1.win 3).blk t).view.set := by
  have hi0 : (i 0).val < 192000 := idx2_lt0 i
  have hi1 : (i 1).val < 32 := idx2_lt1 i
  obtain ⟨t, ht⟩ := idx_onto ⟨(i 0).val / 8000, by omega⟩
  have q0 : win1_3.index t (0 : Fin 2) = (i 0).val / 8000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 32 ≤ (i 1).val ∧ (i 1).val < win1_3.index t (1 : Fin 2) * 32 + 32; omega

end Region1

theorem final1 (c : Dev nD) : (dat1 (F := Ideal) V c).arrAt 3 cfg1.N = Cert.Bridge.denseA (V c main_v15) (V c main_v4) (V c main_arg3) :=
  (dat1 (F := Ideal) V c).arrAt_eq_of_cover 3 _ (fun t _ => Region1.block_eq V c t) Region1.cover

end Cert.KernelIdeal.Final

end
-- ==== Proof.Final2.lean ====
/-
  Region 2 (the gather of stage 2): after all 125 grid points the output array is the whole product of the features
  with the selection matrix; each point writes one block of 128 columns.

  At grid point `t` the body multiplies the whole feature block `[6144, 1000]` with block `t` of the selection matrix,
  columns `128·t … 128·t + 128 - 1`, and the result is written back to the same columns of the output. Entry `(p, q)` of
  that block is `∑ k, x[p, k] · M[k, 128·t + q]`, which is entry `(p, 128·t + q)` of the whole product; the 125 column blocks
  tile the `16000` columns, so the array ends holding the whole product.
-/
import proofs.«410030_j78323023610545_3_alg».proof.Proof.Gen.KernelIdeal.Frame
import proofs.«410030_j78323023610545_3_alg».proof.Proof.KSpec
import proofs.«410030_j78323023610545_3_alg».proof.Proof.LibPlainMatmul
import Idealize.ShloMosaic.Lib.Pipeline.Value
import Idealize.ShloMosaic.PureOps.Ideal.Laws

noncomputable section
set_option maxRecDepth 16384

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-- The offsets of a whole-block access, however spelt, are zero on both axes. -/
theorem zeroOffsets2 : (![0, 0] : Fin 2 → Nat) = fun _ => 0 := funext fun a => by fin_cases a <;> rfl

/-- The body's arithmetic at entry `(p, q)` of its block: the row `p` of the features times the column `q` of the
    selection block (both format changes are the identity on the extended reals, the accumulator starts at zero). -/
theorem blockProduct2_apply (x0 : Vec Ideal S6144x1000 .f32) (x1 : Vec Ideal S1000x128 .bf16) (p : Fin 6144) (q : Fin 128) :
    k2_pay1 (F := Ideal) x0 x1 (ix2 p q) = ∑ k : Fin 1000, x0 (ix2 p k) * x1 (ix2 k q) := by
  unfold k2_pay1
  simp only [shapeCast_self]
  exact Cert.Lib.matmul_plain_apply (φ₁ := .bf16) (φ₂ := .bf16) dot_S6144x1000_S1000x128_S6144x128_1_0_0_1_n_n rfl rfl rfl rfl rfl rfl none
    (truncf .bf16 x0 Gen.bitsLt_bf16_f32) x1 p q

/-- The whole product at an index of the output array. -/
theorem wholeProduct2_apply (x : S6144x1000.Idx → EReal) (M : S1000x16000.Idx → EReal) (i : S6144x16000.Idx) :
    Cert.Bridge.gmm 6144 x M i = ∑ k : Fin 1000, x (ix2 (i 0) k) * M (ix2 k (i 1)) := rfl

/-- The block indices at grid point `t`: the features' block is always block `(0, 0)`; the selection matrix's and the
    output's are block `(0, t)` (decided over the 125 points). -/
theorem blockIndex2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- What grid point `t` writes back is block `t` of the whole product of the arrays as the region finds them. -/
theorem flushed2_eq (c : Dev nD) (t : Fin cfg2.N) :
    (dat2 (F := Ideal) V c).flushed 2 t
      = ((cfg2.win 2).blk t).view.read (Elt Ideal) (Cert.Bridge.gmm 6144 (V c main_v19) (V c main_v2)) := by
  show (cfg2.win 2).cut (grid2.coords t) ((dat2 V c).after 2 t) = _
  rw [after2_2]
  unfold out2_2
  rw [View.canon_unit_zero zeroOffsets2]
  simp only [View.ld_unit_zero (S := S6144x1000) zeroOffsets2, View.ld_unit_zero (S := S1000x128) zeroOffsets2]
  obtain ⟨e0, e1, e2, e3, e4, e5⟩ := blockIndex2 t
  refine funext fun (j : S6144x128.Idx) => ?_
  obtain ⟨p, q, rfl⟩ : ∃ (p : Fin 6144) (q : Fin 128), j = ix2 p q := ⟨j 0, j 1, eq_ix2 j⟩
  refine (blockProduct2_apply _ _ p q).trans ?_
  refine Eq.trans ?_ (wholeProduct2_apply (V c main_v19) (V c main_v2) (((cfg2.win 2).blk t).view.emb (ix2 p q))).symm
  refine Finset.sum_congr rfl fun k _ => ?_
  -- entry (p, k) of the features' block is entry (p, k) of the features
  have h0 : @Eq EReal (iblk2 V c 0 t (ix2 p k))
      (V c main_v19 (ix2 ((((cfg2.win 2).blk t).view.emb (ix2 p q)) 0) k)) := by
    unfold iblk2
    show @Eq EReal (V c main_v19 (((cfg2.win 0).blk t).view.emb (ix2 p k))) _
    refine congrArg _ (funext fun a => Fin.ext ?_)
    match a with
    | ⟨0, _⟩ => show win2_0.index t (0 : Fin 2) * 6144 + 1 * p.val = win2_2.index t (0 : Fin 2) * 6144 + 1 * p.val; omega
    | ⟨1, _⟩ => show win2_0.index t (1 : Fin 2) * 1000 + 1 * k.val = k.val; omega
  -- entry (k, q) of the selection block is entry (k, 128·t + q) of the selection matrix
  have h1 : @Eq EReal (iblk2 V c 1 t (ix2 k q))
      (V c main_v2 (ix2 k ((((cfg2.win 2).blk t).view.emb (ix2 p q)) 1))) := by
    unfold iblk2
    show @Eq EReal (V c main_v2 (((cfg2.win 1).blk t).view.emb (ix2 k q))) _
    refine congrArg _ (funext fun a => Fin.ext ?_)
    match a with
    | ⟨0, _⟩ => show win2_1.index t (0 : Fin 2) * 1000 + 1 * k.val = k.val; omega
    | ⟨1, _⟩ => show win2_1.index t (1 : Fin 2) * 128 + 1 * q.val = win2_2.index t (1 : Fin 2) * 128 + 1 * q.val; omega
  exact congrArg₂ (fun (a b : EReal) => a * b) h0 h1

/-- An index of the output array is in point `t`'s block iff each coordinate is in the block's range on its axis. -/
theorem mem_block2 (t : Fin cfg2.N) (i : S6144x16000.Idx) :
    i ∈ ((cfg2.win 2).blk t).view.set ↔ ∀ a : Fin 2, win2_2.index t a * S6144x128.size a ≤ (i a).val
      ∧ (i a).val < win2_2.index t a * S6144x128.size a + S6144x128.size a := by
  show i ∈ ((View.whole main_v20).slice (win2_2.rect t)).set ↔ _
  rw [View.set_slice_whole, Rect.mem_set_unit]
  exact Iff.rfl

/-- Every index of the output array is in some point's block: column `c` is in block `c / 128`. -/
theorem covered2 (i : S6144x16000.Idx) :
    ∃ t : Fin cfg2.N, (cfg2.win 2).flush t = true ∧ i ∈ ((cfg2.win 2).blk t).view.set := by
  have hi0 : (i 0).val < 6144 := (i 0).isLt
  have hi1 : (i 1).val < 16000 := (i 1).isLt
  have hN : cfg2.N = 125 := N_2
  have ht : (i 1).val / 128 < cfg2.N := by rw [hN]; omega
  refine ⟨⟨(i 1).val / 128, ht⟩, flush2_2 _, ?_⟩
  obtain ⟨e0, e1, e2, e3, e4, e5⟩ := blockIndex2 ⟨(i 1).val / 128, ht⟩
  have e5' : win2_2.index ⟨(i 1).val / 128, ht⟩ (1 : Fin 2) = (i 1).val / 128 := e5
  rw [mem_block2]
  intro a
  match a with
  | ⟨0, _⟩ =>
    show win2_2.index _ (0 : Fin 2) * 6144 ≤ (i 0).val ∧ (i 0).val < win2_2.index _ (0 : Fin 2) * 6144 + 6144
    omega
  | ⟨1, _⟩ =>
    show win2_2.index _ (1 : Fin 2) * 128 ≤ (i 1).val ∧ (i 1).val < win2_2.index _ (1 : Fin 2) * 128 + 128
    omega

theorem final2 (c : Dev nD) : (dat2 (F := Ideal) V c).arrAt 2 cfg2.N = Cert.Bridge.gmm 6144 (V c main_v19) (V c main_v2) :=
  (dat2 (F := Ideal) V c).arrAt_eq_of_cover 2 (Cert.Bridge.gmm 6144 (V c main_v19) (V c main_v2))
    (fun t _ => flushed2_eq V c t) covered2

end Cert.KernelIdeal.Final

end
-- ==== Proof.Final3.lean ====
/-
  Region 3 (dense layer 2 with the batch-norm scale and shift): the output array is the layer applied to every gathered
  row; each of the 24 points writes one block of 8000 rows.
-/
import proofs.«410030_j78323023610545_3_alg».proof.Proof.Gen.KernelIdeal.Frame
import proofs.«410030_j78323023610545_3_alg».proof.Proof.KSpec
import proofs.«410030_j78323023610545_3_alg».proof.Proof.LibPlainMatmul
import Idealize.ShloMosaic.Lib.Pipeline.Value
import Idealize.ShloMosaic.PureOps.Ideal.Laws

noncomputable section
set_option maxRecDepth 16384

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

namespace Region3

/-- A row vector of 16 entries, given a leading unit axis and repeated down 8000 rows, reads its entry at the column. -/
theorem row16_apply (v : FVec Ideal S16 .f32) (hc : S16.ShapeCasts S1x16) (hb : S1x16.Broadcasts S8000x16) (p : Fin 8000) (q : Fin 16) :
    broadcastTo S8000x16 (shapeCast S1x16 v hc) hb (ix2 p q) = v (ix1 q) := by
  rw [broadcastTo_apply _ _ (ix2 p q) (ix2 (0 : Fin 1) q) (fun a => by
    match a with
    | ⟨0, _⟩ => rfl
    | ⟨1, _⟩ => rfl)]
  rw [shapeCast_apply _ _ (ix2 (0 : Fin 1) q) (ix1 q) (by
    rw [Shape.rowMajor_val_one, Shape.rowMajor_val_two]; show q.val = 0 * 16 + q.val; omega)]

/-- The body's arithmetic at row `p`, column `q`. -/
theorem pay_apply (x0 : Vec Ideal S8000x512 .bf16) (x1 : Vec Ideal S512x16 .bf16) (x2 x3 x4 : Vec Ideal S16 .f32)
    (p : Fin 8000) (q : Fin 16) :
    k3_pay1 x0 x1 x2 x3 x4 (ix2 p q)
      = max (((∑ k : Fin 512, x0 (ix2 p k) * x1 (ix2 k q)) + x2 (ix1 q)) * x3 (ix1 q) + x4 (ix1 q)) (Ideal.ofBits .f32 0x00000000#32) := by
  have hm : matmul (F := Ideal) (φ₁ := .bf16) (φ₂ := .bf16) dot_S8000x512_S512x16_S8000x16_1_0_0_1_n_n none x0 x1 (constant S8000x16 .f32 0x00000000#32) (ix2 p q)
      = ∑ k : Fin 512, x0 (ix2 p k) * x1 (ix2 k q) :=
    Cert.Lib.matmul_plain_apply (φ₁ := .bf16) (φ₂ := .bf16) dot_S8000x512_S512x16_S8000x16_1_0_0_1_n_n rfl rfl rfl rfl rfl rfl none x0 x1 p q
  unfold k3_pay1
  rw [maximumf_apply, addf_apply, mulf_apply, addf_apply, broadcast_apply, shapeCast_self, shapeCast_self, shapeCast_self,
    row16_apply, row16_apply, row16_apply, hm]
  rfl

/-- The body's result on a block is the layer on the array, read where the block sits: the block's rows are the array's
    rows `r p`, the weights and the three vectors are whole. -/
theorem block_eq (A0 : FVec Ideal S192000x512 .bf16) (A1 : FVec Ideal S512x16 .bf16) (A2 A3 A4 : FVec Ideal S16 .f32)
    (x0 : Vec Ideal S8000x512 .bf16) (x1 : Vec Ideal S512x16 .bf16) (x2 x3 x4 : Vec Ideal S16 .f32)
    (r : Fin 8000 → Fin 192000) (e : S8000x16.Idx → S192000x16.Idx)
    (he : ∀ (p : Fin 8000) (q : Fin 16), e (ix2 p q) = ix2 (r p) q)
    (h0 : ∀ (p : Fin 8000) (k : Fin 512), x0 (ix2 p k) = A0 (ix2 (r p) k))
    (h1 : x1 = A1) (h2 : x2 = A2) (h3 : x3 = A3) (h4 : x4 = A4) :
    k3_pay1 x0 x1 x2 x3 x4 = fun j => Cert.Bridge.denseB A0 A1 A2 A3 A4 (e j) := by
  funext j
  obtain ⟨p, q, rfl⟩ : ∃ (p : Fin 8000) (q : Fin 16), j = ix2 p q := ⟨j 0, j 1, eq_ix2 j⟩
  rw [pay_apply, he]
  subst h1 h2 h3 h4
  unfold Cert.Bridge.denseB
  simp only [h0]

theorem zero_offsets₂ : (![0, 0] : Fin 2 → Nat) = fun _ => 0 := funext fun a => by fin_cases a <;> rfl
theorem zero_offsets₁ : (![0] : Fin 1 → Nat) = fun _ => 0 := funext fun a => by fin_cases a; rfl

/-- The index maps over the 24 points: the rows' block moves with the output's block, which is the point's number; the weights
    and the three vectors stay at block 0. -/
theorem idx_facts : ∀ t : Fin cfg3.N, win3_0.index t (0 : Fin 2) = t.val
    ∧ win3_0.index t (1 : Fin 2) = 0
    ∧ win3_1.index t (0 : Fin 2) = 0 ∧ win3_1.index t (1 : Fin 2) = 0
    ∧ win3_2.index t (0 : Fin 1) = 0 ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

/-- What point `t` writes back is block `t` of the layer applied to the arrays the region finds. -/
theorem flushed_eq (c : Dev nD) (t : Fin cfg3.N) :
    (dat3 (F := Ideal) V c).flushed 5 t = ((cfg3.win 5).blk t).view.read (Elt Ideal)
      (Cert.Bridge.denseB (V c main_v22) (V c main_v6) (V c main_arg5) (V c main_v12) (V c main_arg9)) := by
  show (cfg3.win 5).cut (grid3.coords t) ((dat3 V c).after 5 t) = _
  rw [after3_5]
  unfold out3_5
  rw [View.canon_unit_zero zero_offsets₂]
  simp only [View.ld_unit_zero (S := S8000x512) zero_offsets₂, View.ld_unit_zero (S := S512x16) zero_offsets₂,
    View.ld_unit_zero (S := S16) zero_offsets₁]
  obtain ⟨e0, e1, e2, e3, e4, e5, e6, e7, e8⟩ := idx_facts t
  have ht : t.val < 24 := lt_of_lt_of_eq t.isLt N_3
  have hr : ∀ p : Fin 8000, t.val * 8000 + p.val < 192000 := fun p => by have := p.isLt; omega
  have he : ∀ (p : Fin 8000) (q : Fin 16),
      ((cfg3.win 5).blk t).view.emb (ix2 p q) = ix2 (⟨t.val * 8000 + p.val, hr p⟩ : Fin 192000) q := by
    intro p q
    funext a; apply Fin.ext
    match a with
    | ⟨0, _⟩ => show win3_5.index t (0 : Fin 2) * 8000 + 1 * p.val = t.val * 8000 + p.val; rw [e7]; omega
    | ⟨1, _⟩ => show win3_5.index t (1 : Fin 2) * 16 + 1 * q.val = q.val; rw [e8]; omega
  have h0 : ∀ (p : Fin 8000) (k : Fin 512),
      iblk3 V c 0 t (ix2 p k) = V c main_v22 (ix2 (⟨t.val * 8000 + p.val, hr p⟩ : Fin 192000) k) := by
    intro p k
    show V c main_v22 (((cfg3.win 0).blk t).view.emb (ix2 p k)) = _
    refine congrArg (V c main_v22) (funext fun a => Fin.ext ?_)
    match a with
    | ⟨0, _⟩ => show win3_0.index t (0 : Fin 2) * 8000 + 1 * p.val = t.val * 8000 + p.val; rw [e0]; omega
    | ⟨1, _⟩ => show win3_0.index t (1 : Fin 2) * 512 + 1 * k.val = k.val; rw [e1]; omega
  have h1 : iblk3 V c 1 t = V c main_v6 := by
    funext y
    show V c main_v6 (((cfg3.win 1).blk t).view.emb y) = V c main_v6 y
    refine congrArg (V c main_v6) (funext fun a => Fin.ext ?_)
    match a with
    | ⟨0, _⟩ => show win3_1.index t (0 : Fin 2) * 512 + 1 * (y 0).val = (y 0).val; rw [e2]; omega
    | ⟨1, _⟩ => show win3_1.index t (1 : Fin 2) * 16 + 1 * (y 1).val = (y 1).val; rw [e3]; omega
  have h2 : iblk3 V c 2 t = V c main_arg5 := by
    funext y
    show V c main_arg5 (((cfg3.win 2).blk t).view.emb y) = V c main_arg5 y
    refine congrArg (V c main_arg5) (funext fun a => Fin.ext ?_)
    match a with
    | ⟨0, _⟩ => show win3_2.index t (0 : Fin 1) * 16 + 1 * (y 0).val = (y 0).val; rw [e4]; omega
  have h3 : iblk3 V c 3 t = V c main_v12 := by
    funext y
    show V c main_v12 (((cfg3.win 3).blk t).view.emb y) = V c main_v12 y
    refine congrArg (V c main_v12) (funext fun a => Fin.ext ?_)
    match a with
    | ⟨0, _⟩ => show win3_3.index t (0 : Fin 1) * 16 + 1 * (y 0).val = (y 0).val; rw [e5]; omega
  have h4 : iblk3 V c 4 t = V c main_arg9 := by
    funext y
    show V c main_arg9 (((cfg3.win 4).blk t).view.emb y) = V c main_arg9 y
    refine congrArg (V c main_arg9) (funext fun a => Fin.ext ?_)
    match a with
    | ⟨0, _⟩ => show win3_4.index t (0 : Fin 1) * 16 + 1 * (y 0).val = (y 0).val; rw [e6]; omega
  funext j
  exact congrFun (block_eq (V c main_v22) (V c main_v6) (V c main_arg5) (V c main_v12) (V c main_arg9)
    (iblk3 V c 0 t) (iblk3 V c 1 t) (iblk3 V c 2 t) (iblk3 V c 3 t) (iblk3 V c 4 t)
    (fun p => ⟨t.val * 8000 + p.val, hr p⟩) (fun y => ((cfg3.win 5).blk t).view.emb y) he h0 h1 h2 h3 h4) j

/-- An index of the output array is in point `t`'s block iff each coordinate is in the block's range on its axis. -/
theorem mem_blk (t : Fin cfg3.N) (i : S192000x16.Idx) :
    i ∈ ((cfg3.win 5).blk t).view.set ↔ ∀ a : Fin 2, win3_5.index t a * S8000x16.size a ≤ (i a).val
      ∧ (i a).val < win3_5.index t a * S8000x16.size a + S8000x16.size a := by
  show i ∈ ((View.whole main_v23).slice (win3_5.rect t)).set ↔ _
  rw [View.set_slice_whole, Rect.mem_set_unit]
  exact Iff.rfl

/-- Every row of the output is in the block of the point numbered by the row's quotient by 8000. -/
theorem cover (i : S192000x16.Idx) : ∃ t : Fin cfg3.N, (cfg3.win 5).flush t = true ∧ i ∈ ((cfg3.win 5).blk t).view.set := by
  have hi0 : (i 0).val < 192000 := (i 0).isLt
  have hi1 : (i 1).val < 16 := (i 1).isLt
  have hN : (i 0).val / 8000 < cfg3.N := by rw [show cfg3.N = 24 from N_3]; omega
  obtain ⟨e0, e1, e2, e3, e4, e5, e6, e7, e8⟩ := idx_facts ⟨(i 0).val / 8000, hN⟩
  have q0 : win3_5.index ⟨(i 0).val / 8000, hN⟩ (0 : Fin 2) = (i 0).val / 8000 := e7
  refine ⟨⟨(i 0).val / 8000, hN⟩, flush3_5 _, ?_⟩
  rw [mem_blk]
  intro a
  match a with
  | ⟨0, _⟩ =>
    show win3_5.index ⟨(i 0).val / 8000, hN⟩ (0 : Fin 2) * 8000 ≤ (i 0).val
      ∧ (i 0).val < win3_5.index ⟨(i 0).val / 8000, hN⟩ (0 : Fin 2) * 8000 + 8000
    rw [q0]; omega
  | ⟨1, _⟩ =>
    show win3_5.index ⟨(i 0).val / 8000, hN⟩ (1 : Fin 2) * 16 ≤ (i 1).val
      ∧ (i 1).val < win3_5.index ⟨(i 0).val / 8000, hN⟩ (1 : Fin 2) * 16 + 16
    rw [e8]; omega

end Region3

theorem final3 (c : Dev nD) : (dat3 (F := Ideal) V c).arrAt 5 cfg3.N = Cert.Bridge.denseB (V c main_v22) (V c main_v6) (V c main_arg5) (V c main_v12) (V c main_arg9) :=
  (dat3 (F := Ideal) V c).arrAt_eq_of_cover 5 _ (fun t _ => Region3.flushed_eq V c t) Region3.cover

end Cert.KernelIdeal.Final

end
-- ==== Proof.Final4.lean ====
/-
  Region 4 (the gather of stage 3): after all 25 grid points the output array is the whole product of the features
  with the selection matrix; each point writes one block of 640 columns.

  At grid point `t` the body multiplies the whole feature block `[3072, 1000]` with block `t` of the selection matrix,
  columns `640·t … 640·t + 640 - 1`, and the result is written back to the same columns of the output. Entry `(p, q)` of
  that block is `∑ k, x[p, k] · M[k, 640·t + q]`, which is entry `(p, 640·t + q)` of the whole product; the 25 column blocks
  tile the `16000` columns, so the array ends holding the whole product.
-/
import proofs.«410030_j78323023610545_3_alg».proof.Proof.Gen.KernelIdeal.Frame
import proofs.«410030_j78323023610545_3_alg».proof.Proof.KSpec
import proofs.«410030_j78323023610545_3_alg».proof.Proof.LibPlainMatmul
import Idealize.ShloMosaic.Lib.Pipeline.Value
import Idealize.ShloMosaic.PureOps.Ideal.Laws

noncomputable section
set_option maxRecDepth 16384

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-- The offsets of a whole-block access, however spelt, are zero on both axes. -/
theorem zeroOffsets4 : (![0, 0] : Fin 2 → Nat) = fun _ => 0 := funext fun a => by fin_cases a <;> rfl

/-- The body's arithmetic at entry `(p, q)` of its block: the row `p` of the features times the column `q` of the
    selection block (both format changes are the identity on the extended reals, the accumulator starts at zero). -/
theorem blockProduct4_apply (x0 : Vec Ideal S3072x1000 .f32) (x1 : Vec Ideal S1000x640 .bf16) (p : Fin 3072) (q : Fin 640) :
    k4_pay1 (F := Ideal) x0 x1 (ix2 p q) = ∑ k : Fin 1000, x0 (ix2 p k) * x1 (ix2 k q) := by
  unfold k4_pay1
  simp only [shapeCast_self]
  exact Cert.Lib.matmul_plain_apply (φ₁ := .bf16) (φ₂ := .bf16) dot_S3072x1000_S1000x640_S3072x640_1_0_0_1_n_n rfl rfl rfl rfl rfl rfl none
    (truncf .bf16 x0 Gen.bitsLt_bf16_f32) x1 p q

/-- The whole product at an index of the output array. -/
theorem wholeProduct4_apply (x : S3072x1000.Idx → EReal) (M : S1000x16000.Idx → EReal) (i : S3072x16000.Idx) :
    Cert.Bridge.gmm 3072 x M i = ∑ k : Fin 1000, x (ix2 (i 0) k) * M (ix2 k (i 1)) := rfl

/-- The block indices at grid point `t`: the features' block is always block `(0, 0)`; the selection matrix's and the
    output's are block `(0, t)` (decided over the 25 points). -/
theorem blockIndex4 : ∀ t : Fin cfg4.N, win4_0.index t (0 : Fin 2) = 0 ∧ win4_0.index t (1 : Fin 2) = 0
    ∧ win4_1.index t (0 : Fin 2) = 0 ∧ win4_1.index t (1 : Fin 2) = t.val
    ∧ win4_2.index t (0 : Fin 2) = 0 ∧ win4_2.index t (1 : Fin 2) = t.val :=
  (by decide +kernel : ∀ t : Fin grid4.N, _)

/-- What grid point `t` writes back is block `t` of the whole product of the arrays as the region finds them. -/
theorem flushed4_eq (c : Dev nD) (t : Fin cfg4.N) :
    (dat4 (F := Ideal) V c).flushed 2 t
      = ((cfg4.win 2).blk t).view.read (Elt Ideal) (Cert.Bridge.gmm 3072 (V c main_v26) (V c main_v2)) := by
  show (cfg4.win 2).cut (grid4.coords t) ((dat4 V c).after 2 t) = _
  rw [after4_2]
  unfold out4_2
  rw [View.canon_unit_zero zeroOffsets4]
  simp only [View.ld_unit_zero (S := S3072x1000) zeroOffsets4, View.ld_unit_zero (S := S1000x640) zeroOffsets4]
  obtain ⟨e0, e1, e2, e3, e4, e5⟩ := blockIndex4 t
  refine funext fun (j : S3072x640.Idx) => ?_
  obtain ⟨p, q, rfl⟩ : ∃ (p : Fin 3072) (q : Fin 640), j = ix2 p q := ⟨j 0, j 1, eq_ix2 j⟩
  refine (blockProduct4_apply _ _ p q).trans ?_
  refine Eq.trans ?_ (wholeProduct4_apply (V c main_v26) (V c main_v2) (((cfg4.win 2).blk t).view.emb (ix2 p q))).symm
  refine Finset.sum_congr rfl fun k _ => ?_
  -- entry (p, k) of the features' block is entry (p, k) of the features
  have h0 : @Eq EReal (iblk4 V c 0 t (ix2 p k))
      (V c main_v26 (ix2 ((((cfg4.win 2).blk t).view.emb (ix2 p q)) 0) k)) := by
    unfold iblk4
    show @Eq EReal (V c main_v26 (((cfg4.win 0).blk t).view.emb (ix2 p k))) _
    refine congrArg _ (funext fun a => Fin.ext ?_)
    match a with
    | ⟨0, _⟩ => show win4_0.index t (0 : Fin 2) * 3072 + 1 * p.val = win4_2.index t (0 : Fin 2) * 3072 + 1 * p.val; omega
    | ⟨1, _⟩ => show win4_0.index t (1 : Fin 2) * 1000 + 1 * k.val = k.val; omega
  -- entry (k, q) of the selection block is entry (k, 640·t + q) of the selection matrix
  have h1 : @Eq EReal (iblk4 V c 1 t (ix2 k q))
      (V c main_v2 (ix2 k ((((cfg4.win 2).blk t).view.emb (ix2 p q)) 1))) := by
    unfold iblk4
    show @Eq EReal (V c main_v2 (((cfg4.win 1).blk t).view.emb (ix2 k q))) _
    refine congrArg _ (funext fun a => Fin.ext ?_)
    match a with
    | ⟨0, _⟩ => show win4_1.index t (0 : Fin 2) * 1000 + 1 * k.val = k.val; omega
    | ⟨1, _⟩ => show win4_1.index t (1 : Fin 2) * 640 + 1 * q.val = win4_2.index t (1 : Fin 2) * 640 + 1 * q.val; omega
  exact congrArg₂ (fun (a b : EReal) => a * b) h0 h1

/-- An index of the output array is in point `t`'s block iff each coordinate is in the block's range on its axis. -/
theorem mem_block4 (t : Fin cfg4.N) (i : S3072x16000.Idx) :
    i ∈ ((cfg4.win 2).blk t).view.set ↔ ∀ a : Fin 2, win4_2.index t a * S3072x640.size a ≤ (i a).val
      ∧ (i a).val < win4_2.index t a * S3072x640.size a + S3072x640.size a := by
  show i ∈ ((View.whole main_v27).slice (win4_2.rect t)).set ↔ _
  rw [View.set_slice_whole, Rect.mem_set_unit]
  exact Iff.rfl

/-- Every index of the output array is in some point's block: column `c` is in block `c / 640`. -/
theorem covered4 (i : S3072x16000.Idx) :
    ∃ t : Fin cfg4.N, (cfg4.win 2).flush t = true ∧ i ∈ ((cfg4.win 2).blk t).view.set := by
  have hi0 : (i 0).val < 3072 := (i 0).isLt
  have hi1 : (i 1).val < 16000 := (i 1).isLt
  have hN : cfg4.N = 25 := N_4
  have ht : (i 1).val / 640 < cfg4.N := by rw [hN]; omega
  refine ⟨⟨(i 1).val / 640, ht⟩, flush4_2 _, ?_⟩
  obtain ⟨e0, e1, e2, e3, e4, e5⟩ := blockIndex4 ⟨(i 1).val / 640, ht⟩
  have e5' : win4_2.index ⟨(i 1).val / 640, ht⟩ (1 : Fin 2) = (i 1).val / 640 := e5
  rw [mem_block4]
  intro a
  match a with
  | ⟨0, _⟩ =>
    show win4_2.index _ (0 : Fin 2) * 3072 ≤ (i 0).val ∧ (i 0).val < win4_2.index _ (0 : Fin 2) * 3072 + 3072
    omega
  | ⟨1, _⟩ =>
    show win4_2.index _ (1 : Fin 2) * 640 ≤ (i 1).val ∧ (i 1).val < win4_2.index _ (1 : Fin 2) * 640 + 640
    omega

theorem final4 (c : Dev nD) : (dat4 (F := Ideal) V c).arrAt 2 cfg4.N = Cert.Bridge.gmm 3072 (V c main_v26) (V c main_v2) :=
  (dat4 (F := Ideal) V c).arrAt_eq_of_cover 2 (Cert.Bridge.gmm 3072 (V c main_v26) (V c main_v2))
    (fun t _ => flushed4_eq V c t) covered4

end Cert.KernelIdeal.Final

end
-- ==== Proof.Final5.lean ====
/-
  Region 5 (dense layer 3): the output array is the layer applied to every gathered row; each of the 24 points writes
  one block of 8000 rows.
-/
import proofs.«410030_j78323023610545_3_alg».proof.Proof.Gen.KernelIdeal.Frame
import proofs.«410030_j78323023610545_3_alg».proof.Proof.KSpec
import proofs.«410030_j78323023610545_3_alg».proof.Proof.LibPlainMatmul
import Idealize.ShloMosaic.Lib.Pipeline.Value
import Idealize.ShloMosaic.PureOps.Ideal.Laws

noncomputable section
set_option maxRecDepth 16384

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

namespace Region5

theorem zeros2 : (![0, 0] : Fin 2 → Nat) = fun _ => 0 := funext fun a => by fin_cases a <;> rfl
theorem zeros1 : (![0] : Fin 1 → Nat) = fun _ => 0 := funext fun a => by fin_cases a; rfl

/-- The one bias entry, viewed as a one-by-one matrix and repeated down the rows, read at `(p, q)` is that entry. -/
theorem bias_apply (b : Vec Ideal S1 .f32) (p : Fin 8000) (q : Fin 1) :
    broadcastTo S8000x1 (shapeCast S1x1 b Facts₀.shapeCasts_S1_S1x1) Facts₀.broadcasts_S1x1_S8000x1 (ix2 p q) = b (ix1 q) := by
  refine (broadcastTo_apply _ _ (ix2 p q) (ix2 (⟨0, Nat.one_pos⟩ : Fin 1) (⟨0, Nat.one_pos⟩ : Fin 1)) fun a => ?_).trans ?_
  · match a with
    | ⟨0, _⟩ => rfl
    | ⟨1, _⟩ => rfl
  · refine shapeCast_apply _ _ _ (ix1 q) ?_
    rw [Shape.rowMajor_val_one, Shape.rowMajor_val_two]
    show q.val = 0 * 1 + 0
    omega

/-- The body at `(p, q)`: row `p` of the block times column `q` of the weights, plus the bias, clamped below at zero. -/
theorem pay_apply (x0 : Vec Ideal S8000x256 .bf16) (x1 : Vec Ideal S256x1 .bf16) (x2 : Vec Ideal S1 .f32) (p : Fin 8000) (q : Fin 1) :
    k5_pay1 x0 x1 x2 (ix2 p q)
      = max ((∑ k : Fin 256, x0 (ix2 p k) * x1 (ix2 k q)) + x2 (ix1 q)) (Ideal.ofBits .f32 0x00000000#32) := by
  unfold k5_pay1
  rw [maximumf_apply, addf_apply, broadcast_apply, shapeCast_self, shapeCast_self, bias_apply]
  exact congrArg₂ max (congrArg (· + x2 (ix1 q))
    (Cert.Lib.matmul_plain_apply dot_S8000x256_S256x1_S8000x1_1_0_0_1_n_n rfl rfl rfl rfl rfl rfl none x0 x1 p q)) rfl

/-- The block index maps, decided once over the 24 points: the gathered rows' block moves with the output's block,
    every other block index is zero, and the output's block row stays below 24. -/
theorem idx_facts : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 1) = 0
    ∧ win5_3.index t (1 : Fin 2) = 0
    ∧ win5_3.index t (0 : Fin 2) ≤ 23 :=
  (by decide +kernel : ∀ t : Fin grid5.N, _)

/-- Every block row of the output is some point's. -/
theorem idx_onto : ∀ b : Fin 24, ∃ t : Fin cfg5.N, win5_3.index t = ![b.val, 0] :=
  (by decide +kernel : ∀ b : Fin 24, ∃ t : Fin grid5.N, win5_3.index t = ![b.val, 0])

/-- The gathered rows' block at point `t`, read at `(p, k)`, is the array at row `8000·(block row) + p`. -/
theorem rows_apply (c : Dev nD) (t : Fin cfg5.N) (p : Fin 8000) (k : Fin 256) (r : Fin 192000)
    (hr : r.val = win5_3.index t (0 : Fin 2) * 8000 + 1 * p.val) :
    iblk5 V c 0 t (ix2 p k) = V c main_v29 (ix2 r k) := by
  obtain ⟨e0, e1, -⟩ := idx_facts t
  unfold iblk5
  show V c main_v29 (((cfg5.win 0).blk t).view.emb (ix2 p k)) = V c main_v29 (ix2 r k)
  refine congrArg (V c main_v29) (funext fun a => Fin.ext ?_)
  match a with
  | ⟨0, _⟩ => show win5_0.index t (0 : Fin 2) * 8000 + 1 * p.val = r.val; omega
  | ⟨1, _⟩ => show win5_0.index t (1 : Fin 2) * 256 + 1 * k.val = k.val; omega

/-- The weights' block is the whole weight column at every point. -/
theorem weights_apply (c : Dev nD) (t : Fin cfg5.N) (k : Fin 256) (q : Fin 1) :
    iblk5 V c 1 t (ix2 k q) = V c main_v8 (ix2 k q) := by
  obtain ⟨-, -, e2, e3, -⟩ := idx_facts t
  unfold iblk5
  show V c main_v8 (((cfg5.win 1).blk t).view.emb (ix2 k q)) = V c main_v8 (ix2 k q)
  refine congrArg (V c main_v8) (funext fun a => Fin.ext ?_)
  match a with
  | ⟨0, _⟩ => show win5_1.index t (0 : Fin 2) * 256 + 1 * k.val = k.val; omega
  | ⟨1, _⟩ => show win5_1.index t (1 : Fin 2) * 1 + 1 * q.val = q.val; omega

/-- The bias's block is the whole bias at every point. -/
theorem bias_blk_apply (c : Dev nD) (t : Fin cfg5.N) (q : Fin 1) :
    iblk5 V c 2 t (ix1 q) = V c main_arg7 (ix1 q) := by
  obtain ⟨-, -, -, -, e4, -⟩ := idx_facts t
  unfold iblk5
  show V c main_arg7 (((cfg5.win 2).blk t).view.emb (ix1 q)) = V c main_arg7 (ix1 q)
  refine congrArg (V c main_arg7) (funext fun a => Fin.ext ?_)
  match a with
  | ⟨0, _⟩ => show win5_2.index t (0 : Fin 1) * 1 + 1 * q.val = q.val; omega

/-- WHAT POINT `t` WRITES BACK is block `t` of the layer applied to every gathered row. -/
theorem block_eq (c : Dev nD) (t : Fin cfg5.N) :
    (dat5 (F := Ideal) V c).flushed 3 t
      = ((cfg5.win 3).blk t).view.read (Elt Ideal) (Cert.Bridge.denseC (V c main_v29) (V c main_v8) (V c main_arg7)) := by
  show (cfg5.win 3).cut (grid5.coords t) ((dat5 (F := Ideal) V c).after 3 t) = _
  rw [after5_3]
  unfold out5_3
  rw [View.canon_unit_zero zeros2]
  simp only [View.ld_unit_zero (S := S8000x256) zeros2, View.ld_unit_zero (S := S256x1) zeros2, View.ld_unit_zero (S := S1) zeros1]
  funext j
  obtain ⟨p, q, rfl⟩ : ∃ (p : Fin 8000) (q : Fin 1), j = ix2 p q := ⟨j 0, j 1, eq_ix2 j⟩
  show k5_pay1 (iblk5 V c 0 t) (iblk5 V c 1 t) (iblk5 V c 2 t) (ix2 p q)
    = Cert.Bridge.denseC (V c main_v29) (V c main_v8) (V c main_arg7) (((cfg5.win 3).blk t).view.emb (ix2 p q))
  rw [pay_apply]
  obtain ⟨-, -, -, -, -, e5, -⟩ := idx_facts t
  have h0 : ((((cfg5.win 3).blk t).view.emb (ix2 p q)) 0).val = win5_3.index t (0 : Fin 2) * 8000 + 1 * p.val := rfl
  have h1 : ((((cfg5.win 3).blk t).view.emb (ix2 p q)) 1) = q :=
    Fin.ext (show win5_3.index t (1 : Fin 2) * 1 + 1 * q.val = q.val by omega)
  unfold Cert.Bridge.denseC
  refine congrArg₂ max (congrArg₂ (· + ·) (Finset.sum_congr rfl fun k _ => congrArg₂ (· * ·) ?_ ?_) ?_) rfl
  · exact rows_apply V c t p k _ h0
  · rw [h1]; exact weights_apply V c t k q
  · rw [h1]; exact bias_blk_apply V c t q

/-- An index of the output array is in point `t`'s block iff each coordinate is in the block's range on its axis. -/
theorem mem_block (t : Fin cfg5.N) (i : S192000x1.Idx) :
    i ∈ ((cfg5.win 3).blk t).view.set
      ↔ ∀ a : Fin 2, win5_3.index t a * S8000x1.size a ≤ (i a).val ∧ (i a).val < win5_3.index t a * S8000x1.size a + S8000x1.size a := by
  show i ∈ ((View.whole main_v30).slice (win5_3.rect t)).set ↔ _
  rw [View.set_slice_whole, Rect.mem_set_unit]
  exact Iff.rfl

/-- The 24 blocks of 8000 rows tile the output array: row `r` is in the block of the point whose block row is `r / 8000`. -/
theorem cover (i : S192000x1.Idx) :
    ∃ t : Fin cfg5.N, (cfg5.win 3).flush t = true ∧ i ∈ ((cfg5.win 3).blk t).view.set := by
  have hi0 : (i 0).val < 192000 := idx2_lt0 i
  have hi1 : (i 1).val < 1 := idx2_lt1 i
  obtain ⟨t, ht⟩ := idx_onto ⟨(i 0).val / 8000, by omega⟩
  have q0 : win5_3.index t (0 : Fin 2) = (i 0).val / 8000 := congrFun ht 0
  have q1 : win5_3.index t (1 : Fin 2) = 0 := congrFun ht 1
  refine ⟨t, flush5_3 t, ?_⟩
  rw [mem_block]
  intro a
  match a with
  | ⟨0, _⟩ => show win5_3.index t (0 : Fin 2) * 8000 ≤ (i 0).val ∧ (i 0).val < win5_3.index t (0 : Fin 2) * 8000 + 8000; omega
  | ⟨1, _⟩ => show win5_3.index t (1 : Fin 2) * 1 ≤ (i 1).val ∧ (i 1).val < win5_3.index t (1 : Fin 2) * 1 + 1; omega

end Region5

theorem final5 (c : Dev nD) : (dat5 (F := Ideal) V c).arrAt 3 cfg5.N = Cert.Bridge.denseC (V c main_v29) (V c main_v8) (V c main_arg7) :=
  (dat5 (F := Ideal) V c).arrAt_eq_of_cover 3 _ (fun t _ => Region5.block_eq V c t) Region5.cover

end Cert.KernelIdeal.Final

end
-- ==== Proof.KernelValue.lean ====
/-
  The kernel's result as a function of its arguments.

  Walking @main from the launch: the host operations before the first pallas_call build the selection matrix, the
  transposed weights, the batch-norm scale and the input as a [192, 1000] matrix; each pallas_call leaves in its output
  array one whole-array function of its input arrays; the host operations between the calls only reshape and transpose.
  Composed, the result buffer holds the three stages of the specification applied to the arguments.
-/
import proofs.«410030_j78323023610545_3_alg».proof.Proof.Gen.KernelIdeal.Frame
import proofs.«410030_j78323023610545_3_alg».proof.Proof.KSpec
import proofs.«410030_j78323023610545_3_alg».proof.Proof.Final0
import proofs.«410030_j78323023610545_3_alg».proof.Proof.Final1
import proofs.«410030_j78323023610545_3_alg».proof.Proof.Final2
import proofs.«410030_j78323023610545_3_alg».proof.Proof.Final3
import proofs.«410030_j78323023610545_3_alg».proof.Proof.Final4
import proofs.«410030_j78323023610545_3_alg».proof.Proof.Final5
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.Bridge

variable (m : (ℓ : Loc nD τ sig) → Buf (Elt Ideal) ℓ) (ρ : Dev nD → PrngReg) (c : Dev nD)

/-- A stretch of host operations leaves a buffer none of them writes as it was. -/
local macro "host_keeps" : tactic =>
  `(tactic| exact StableHlo.after_of_forall_not_mem _ _ (List.forall_iff_forall_mem.mp (by
      simp only [hostOps0, hostOps0_1, hostOps0_2, hostOps0_3, hostOps1, hostOps2, hostOps3, hostOps4, hostOps5, hostOps6,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Before the first call: what the host operations leave -/

theorem W4_v13 : W4 m ρ c (Proc.devRef .tc main_v13) = shapeCast _ (m ((c : Thread nD τ).loc main_arg0)) shapeCasts_S8x24x1000x1_S192x1000 := by
  dsimp only [W4, W3, W2, W1, W0, hostOps0, hostOps0_1, hostOps0_2, hostOps0_3]
  after_results <;> rfl
theorem W4_v2 : W4 m ρ c (Proc.devRef .tc main_v2) = oneHotM (m ((c : Thread nD τ).loc main_arg1)) := by
  dsimp only [W4, W3, W2, W1, W0, hostOps0, hostOps0_1, hostOps0_2, hostOps0_3]
  after_results <;> rfl
theorem W4_v4 : W4 m ρ c (Proc.devRef .tc main_v4) = wT1 (m ((c : Thread nD τ).loc main_arg2)) := by
  dsimp only [W4, W3, W2, W1, W0, hostOps0, hostOps0_1, hostOps0_2, hostOps0_3]
  after_results <;> rfl
theorem W4_v6 : W4 m ρ c (Proc.devRef .tc main_v6) = wT2 (m ((c : Thread nD τ).loc main_arg4)) := by
  dsimp only [W4, W3, W2, W1, W0, hostOps0, hostOps0_1, hostOps0_2, hostOps0_3]
  after_results <;> rfl
theorem W4_v8 : W4 m ρ c (Proc.devRef .tc main_v8) = wT3 (m ((c : Thread nD τ).loc main_arg6)) := by
  dsimp only [W4, W3, W2, W1, W0, hostOps0, hostOps0_1, hostOps0_2, hostOps0_3]
  after_results <;> rfl
theorem W4_v12 : W4 m ρ c (Proc.devRef .tc main_v12) = bnScale (m ((c : Thread nD τ).loc main_arg8)) := by
  dsimp only [W4, W3, W2, W1, W0, hostOps0, hostOps0_1, hostOps0_2, hostOps0_3]
  after_results <;> rfl
theorem W4_arg3 : W4 m ρ c (Proc.devRef .tc main_arg3) = (m ((c : Thread nD τ).loc main_arg3)) := by
  dsimp only [W4, W3, W2, W1, W0, hostOps0, hostOps0_1, hostOps0_2, hostOps0_3]
  after_results <;> rfl
theorem W4_arg5 : W4 m ρ c (Proc.devRef .tc main_arg5) = (m ((c : Thread nD τ).loc main_arg5)) := by
  dsimp only [W4, W3, W2, W1, W0, hostOps0, hostOps0_1, hostOps0_2, hostOps0_3]
  after_results <;> rfl
theorem W4_arg7 : W4 m ρ c (Proc.devRef .tc main_arg7) = (m ((c : Thread nD τ).loc main_arg7)) := by
  dsimp only [W4, W3, W2, W1, W0, hostOps0, hostOps0_1, hostOps0_2, hostOps0_3]
  after_results <;> rfl
theorem W4_arg9 : W4 m ρ c (Proc.devRef .tc main_arg9) = (m ((c : Thread nD τ).loc main_arg9)) := by
  dsimp only [W4, W3, W2, W1, W0, hostOps0, hostOps0_1, hostOps0_2, hostOps0_3]
  after_results <;> rfl

/-! ## Buffers no later operation writes keep their contents up to the call that reads them (a pallas_call leaves its
    input arrays as it found them) -/

theorem W6_v4 : W6 m ρ c (Proc.devRef .tc main_v4) = W4 m ρ c (Proc.devRef .tc main_v4) :=
  calc W6 m ρ c (Proc.devRef .tc main_v4)
    _ = W5 m ρ c (Proc.devRef .tc main_v4) := by host_keeps
    _ = W4 m ρ c (Proc.devRef .tc main_v4) := W5_of_ne m ρ c main_v4 (by decide)
theorem W6_arg3 : W6 m ρ c (Proc.devRef .tc main_arg3) = W4 m ρ c (Proc.devRef .tc main_arg3) :=
  calc W6 m ρ c (Proc.devRef .tc main_arg3)
    _ = W5 m ρ c (Proc.devRef .tc main_arg3) := by host_keeps
    _ = W4 m ρ c (Proc.devRef .tc main_arg3) := W5_of_ne m ρ c main_arg3 (by decide)
theorem W8_v2 : W8 m ρ c (Proc.devRef .tc main_v2) = W4 m ρ c (Proc.devRef .tc main_v2) :=
  calc W8 m ρ c (Proc.devRef .tc main_v2)
    _ = W7 m ρ c (Proc.devRef .tc main_v2) := by host_keeps
    _ = W6 m ρ c (Proc.devRef .tc main_v2) := W7_of_ne m ρ c main_v2 (by decide)
    _ = W5 m ρ c (Proc.devRef .tc main_v2) := by host_keeps
    _ = W4 m ρ c (Proc.devRef .tc main_v2) := (W5_arr m ρ c 1).trans (((dat0 (V4 m ρ) c).arrAt_in 1 rfl _).trans (A_eq0 (V4 m ρ) c 1))
theorem W10_v6 : W10 m ρ c (Proc.devRef .tc main_v6) = W4 m ρ c (Proc.devRef .tc main_v6) :=
  calc W10 m ρ c (Proc.devRef .tc main_v6)
    _ = W9 m ρ c (Proc.devRef .tc main_v6) := by host_keeps
    _ = W8 m ρ c (Proc.devRef .tc main_v6) := W9_of_ne m ρ c main_v6 (by decide)
    _ = W7 m ρ c (Proc.devRef .tc main_v6) := by host_keeps
    _ = W6 m ρ c (Proc.devRef .tc main_v6) := W7_of_ne m ρ c main_v6 (by decide)
    _ = W5 m ρ c (Proc.devRef .tc main_v6) := by host_keeps
    _ = W4 m ρ c (Proc.devRef .tc main_v6) := W5_of_ne m ρ c main_v6 (by decide)
theorem W10_v12 : W10 m ρ c (Proc.devRef .tc main_v12) = W4 m ρ c (Proc.devRef .tc main_v12) :=
  calc W10 m ρ c (Proc.devRef .tc main_v12)
    _ = W9 m ρ c (Proc.devRef .tc main_v12) := by host_keeps
    _ = W8 m ρ c (Proc.devRef .tc main_v12) := W9_of_ne m ρ c main_v12 (by decide)
    _ = W7 m ρ c (Proc.devRef .tc main_v12) := by host_keeps
    _ = W6 m ρ c (Proc.devRef .tc main_v12) := W7_of_ne m ρ c main_v12 (by decide)
    _ = W5 m ρ c (Proc.devRef .tc main_v12) := by host_keeps
    _ = W4 m ρ c (Proc.devRef .tc main_v12) := W5_of_ne m ρ c main_v12 (by decide)
theorem W10_arg5 : W10 m ρ c (Proc.devRef .tc main_arg5) = W4 m ρ c (Proc.devRef .tc main_arg5) :=
  calc W10 m ρ c (Proc.devRef .tc main_arg5)
    _ = W9 m ρ c (Proc.devRef .tc main_arg5) := by host_keeps
    _ = W8 m ρ c (Proc.devRef .tc main_arg5) := W9_of_ne m ρ c main_arg5 (by decide)
    _ = W7 m ρ c (Proc.devRef .tc main_arg5) := by host_keeps
    _ = W6 m ρ c (Proc.devRef .tc main_arg5) := W7_of_ne m ρ c main_arg5 (by decide)
    _ = W5 m ρ c (Proc.devRef .tc main_arg5) := by host_keeps
    _ = W4 m ρ c (Proc.devRef .tc main_arg5) := W5_of_ne m ρ c main_arg5 (by decide)
theorem W10_arg9 : W10 m ρ c (Proc.devRef .tc main_arg9) = W4 m ρ c (Proc.devRef .tc main_arg9) :=
  calc W10 m ρ c (Proc.devRef .tc main_arg9)
    _ = W9 m ρ c (Proc.devRef .tc main_arg9) := by host_keeps
    _ = W8 m ρ c (Proc.devRef .tc main_arg9) := W9_of_ne m ρ c main_arg9 (by decide)
    _ = W7 m ρ c (Proc.devRef .tc main_arg9) := by host_keeps
    _ = W6 m ρ c (Proc.devRef .tc main_arg9) := W7_of_ne m ρ c main_arg9 (by decide)
    _ = W5 m ρ c (Proc.devRef .tc main_arg9) := by host_keeps
    _ = W4 m ρ c (Proc.devRef .tc main_arg9) := W5_of_ne m ρ c main_arg9 (by decide)
theorem W12_v2 : W12 m ρ c (Proc.devRef .tc main_v2) = W4 m ρ c (Proc.devRef .tc main_v2) :=
  calc W12 m ρ c (Proc.devRef .tc main_v2)
    _ = W11 m ρ c (Proc.devRef .tc main_v2) := by host_keeps
    _ = W10 m ρ c (Proc.devRef .tc main_v2) := W11_of_ne m ρ c main_v2 (by decide)
    _ = W9 m ρ c (Proc.devRef .tc main_v2) := by host_keeps
    _ = W8 m ρ c (Proc.devRef .tc main_v2) := (W9_arr m ρ c 1).trans (((dat2 (V8 m ρ) c).arrAt_in 1 rfl _).trans (A_eq2 (V8 m ρ) c 1))
    _ = W7 m ρ c (Proc.devRef .tc main_v2) := by host_keeps
    _ = W6 m ρ c (Proc.devRef .tc main_v2) := W7_of_ne m ρ c main_v2 (by decide)
    _ = W5 m ρ c (Proc.devRef .tc main_v2) := by host_keeps
    _ = W4 m ρ c (Proc.devRef .tc main_v2) := (W5_arr m ρ c 1).trans (((dat0 (V4 m ρ) c).arrAt_in 1 rfl _).trans (A_eq0 (V4 m ρ) c 1))
theorem W14_v8 : W14 m ρ c (Proc.devRef .tc main_v8) = W4 m ρ c (Proc.devRef .tc main_v8) :=
  calc W14 m ρ c (Proc.devRef .tc main_v8)
    _ = W13 m ρ c (Proc.devRef .tc main_v8) := by host_keeps
    _ = W12 m ρ c (Proc.devRef .tc main_v8) := W13_of_ne m ρ c main_v8 (by decide)
    _ = W11 m ρ c (Proc.devRef .tc main_v8) := by host_keeps
    _ = W10 m ρ c (Proc.devRef .tc main_v8) := W11_of_ne m ρ c main_v8 (by decide)
    _ = W9 m ρ c (Proc.devRef .tc main_v8) := by host_keeps
    _ = W8 m ρ c (Proc.devRef .tc main_v8) := W9_of_ne m ρ c main_v8 (by decide)
    _ = W7 m ρ c (Proc.devRef .tc main_v8) := by host_keeps
    _ = W6 m ρ c (Proc.devRef .tc main_v8) := W7_of_ne m ρ c main_v8 (by decide)
    _ = W5 m ρ c (Proc.devRef .tc main_v8) := by host_keeps
    _ = W4 m ρ c (Proc.devRef .tc main_v8) := W5_of_ne m ρ c main_v8 (by decide)
theorem W14_arg7 : W14 m ρ c (Proc.devRef .tc main_arg7) = W4 m ρ c (Proc.devRef .tc main_arg7) :=
  calc W14 m ρ c (Proc.devRef .tc main_arg7)
    _ = W13 m ρ c (Proc.devRef .tc main_arg7) := by host_keeps
    _ = W12 m ρ c (Proc.devRef .tc main_arg7) := W13_of_ne m ρ c main_arg7 (by decide)
    _ = W11 m ρ c (Proc.devRef .tc main_arg7) := by host_keeps
    _ = W10 m ρ c (Proc.devRef .tc main_arg7) := W11_of_ne m ρ c main_arg7 (by decide)
    _ = W9 m ρ c (Proc.devRef .tc main_arg7) := by host_keeps
    _ = W8 m ρ c (Proc.devRef .tc main_arg7) := W9_of_ne m ρ c main_arg7 (by decide)
    _ = W7 m ρ c (Proc.devRef .tc main_arg7) := by host_keeps
    _ = W6 m ρ c (Proc.devRef .tc main_arg7) := W7_of_ne m ρ c main_arg7 (by decide)
    _ = W5 m ρ c (Proc.devRef .tc main_arg7) := by host_keeps
    _ = W4 m ρ c (Proc.devRef .tc main_arg7) := W5_of_ne m ρ c main_arg7 (by decide)

/-! ## Stage 1 -/

/-- The first gather's output array: the input rows times the selection matrix. -/
theorem W5_v14 : W5 m ρ c (Proc.devRef .tc main_v14) = gmm 192 (shapeCast _ (m ((c : Thread nD τ).loc main_arg0)) shapeCasts_S8x24x1000x1_S192x1000) (oneHotM (m ((c : Thread nD τ).loc main_arg1))) :=
  ((W5_arr m ρ c 2).trans (Final.final0 (V4 m ρ) c)).trans (congrArg₂ (gmm 192) (W4_v13 m ρ c) (W4_v2 m ρ c))

theorem W6_v15 : W6 m ρ c (Proc.devRef .tc main_v15) = shapeCast _ (W5 m ρ c (Proc.devRef .tc main_v14)) shapeCasts_S192x16000_S192000x16 := by
  dsimp only [W6, hostOps1]
  after_results <;> rfl

/-- The first dense layer's output array. -/
theorem W7_v16 : W7 m ρ c (Proc.devRef .tc main_v16)
    = denseA (shapeCast _ (gmm 192 (shapeCast _ (m ((c : Thread nD τ).loc main_arg0)) shapeCasts_S8x24x1000x1_S192x1000) (oneHotM (m ((c : Thread nD τ).loc main_arg1)))) shapeCasts_S192x16000_S192000x16) (wT1 (m ((c : Thread nD τ).loc main_arg2))) (m ((c : Thread nD τ).loc main_arg3)) := by
  refine ((W7_arr m ρ c 3).trans (Final.final1 (V6 m ρ) c)).trans ?_
  show denseA (W6 m ρ c (Proc.devRef .tc main_v15)) (W6 m ρ c (Proc.devRef .tc main_v4)) (W6 m ρ c (Proc.devRef .tc main_arg3)) = _
  rw [W6_v15, W5_v14, W6_v4, W4_v4, W6_arg3, W4_arg3]

theorem W8_v18 : W8 m ρ c (Proc.devRef .tc main_v18)
    = transpose S192x32x1000 [0, 2, 1] (shapeCast _ (W7 m ρ c (Proc.devRef .tc main_v16)) shapeCasts_S192000x32_S192x1000x32) transposes_S192x1000x32_S192x32x1000_0_2_1 := by
  dsimp only [W8, hostOps2]
  after_results <;> rfl

theorem W8_v19 : W8 m ρ c (Proc.devRef .tc main_v19)
    = shapeCast _ (transpose S192x32x1000 [0, 2, 1] (shapeCast _ (W7 m ρ c (Proc.devRef .tc main_v16)) shapeCasts_S192000x32_S192x1000x32) transposes_S192x1000x32_S192x32x1000_0_2_1) shapeCasts_S192x32x1000_S6144x1000 := by
  dsimp only [W8, hostOps2]
  after_results <;> rfl

/-- The first hidden features are stage 1 of the specification. -/
theorem stage1_val : transpose S192x32x1000 [0, 2, 1] (shapeCast _ (W7 m ρ c (Proc.devRef .tc main_v16)) shapeCasts_S192000x32_S192x1000x32) transposes_S192x1000x32_S192x32x1000_0_2_1
    = (kstage1 (m ((c : Thread nD τ).loc main_arg0)) (m ((c : Thread nD τ).loc main_arg1)) (m ((c : Thread nD τ).loc main_arg2)) (m ((c : Thread nD τ).loc main_arg3))) := by
  rw [W7_v16]; rfl

/-! ## Stage 2 -/

theorem W9_v20 : W9 m ρ c (Proc.devRef .tc main_v20) = gmm 6144 (shapeCast _ (kstage1 (m ((c : Thread nD τ).loc main_arg0)) (m ((c : Thread nD τ).loc main_arg1)) (m ((c : Thread nD τ).loc main_arg2)) (m ((c : Thread nD τ).loc main_arg3))) shapeCasts_S192x32x1000_S6144x1000) (oneHotM (m ((c : Thread nD τ).loc main_arg1))) := by
  refine ((W9_arr m ρ c 2).trans (Final.final2 (V8 m ρ) c)).trans ?_
  show gmm 6144 (W8 m ρ c (Proc.devRef .tc main_v19)) (W8 m ρ c (Proc.devRef .tc main_v2)) = _
  rw [W8_v19, stage1_val, W8_v2, W4_v2]

theorem W10_v22 : W10 m ρ c (Proc.devRef .tc main_v22)
    = shapeCast _ (shapeCast _ (W9 m ρ c (Proc.devRef .tc main_v20)) shapeCasts_S6144x16000_S192x32x1000x16) shapeCasts_S192x32x1000x16_S192000x512 := by
  dsimp only [W10, hostOps3]
  after_results <;> rfl

theorem W11_v23 : W11 m ρ c (Proc.devRef .tc main_v23)
    = denseB (shapeCast _ (shapeCast _ (gmm 6144 (shapeCast _ (kstage1 (m ((c : Thread nD τ).loc main_arg0)) (m ((c : Thread nD τ).loc main_arg1)) (m ((c : Thread nD τ).loc main_arg2)) (m ((c : Thread nD τ).loc main_arg3))) shapeCasts_S192x32x1000_S6144x1000) (oneHotM (m ((c : Thread nD τ).loc main_arg1)))) shapeCasts_S6144x16000_S192x32x1000x16) shapeCasts_S192x32x1000x16_S192000x512)
        (wT2 (m ((c : Thread nD τ).loc main_arg4))) (m ((c : Thread nD τ).loc main_arg5)) (bnScale (m ((c : Thread nD τ).loc main_arg8))) (m ((c : Thread nD τ).loc main_arg9)) := by
  refine ((W11_arr m ρ c 5).trans (Final.final3 (V10 m ρ) c)).trans ?_
  show denseB (W10 m ρ c (Proc.devRef .tc main_v22)) (W10 m ρ c (Proc.devRef .tc main_v6)) (W10 m ρ c (Proc.devRef .tc main_arg5)) (W10 m ρ c (Proc.devRef .tc main_v12)) (W10 m ρ c (Proc.devRef .tc main_arg9)) = _
  rw [W10_v22, W9_v20, W10_v6, W4_v6, W10_arg5, W4_arg5, W10_v12, W4_v12, W10_arg9, W4_arg9]

theorem W12_v26 : W12 m ρ c (Proc.devRef .tc main_v26)
    = shapeCast _ (transpose S192x16x1000 [0, 2, 1] (shapeCast _ (W11 m ρ c (Proc.devRef .tc main_v23)) shapeCasts_S192000x16_S192x1000x16) transposes_S192x1000x16_S192x16x1000_0_2_1) shapeCasts_S192x16x1000_S3072x1000 := by
  dsimp only [W12, hostOps4]
  after_results <;> rfl

/-- The second hidden features are stage 2 of the specification. -/
theorem stage2_val : transpose S192x16x1000 [0, 2, 1] (shapeCast _ (W11 m ρ c (Proc.devRef .tc main_v23)) shapeCasts_S192000x16_S192x1000x16) transposes_S192x1000x16_S192x16x1000_0_2_1
    = (kstage2 (kstage1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg8)) (m ((c : Thread nD τ).loc main_arg9))) := by
  rw [W11_v23]; rfl

/-! ## Stage 3 -/

theorem W13_v27 : W13 m ρ c (Proc.devRef .tc main_v27) = gmm 3072 (shapeCast _ (kstage2 (kstage1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg8)) (m ((c : Thread nD τ).loc main_arg9))) shapeCasts_S192x16x1000_S3072x1000) (oneHotM (m ((c : Thread nD τ).loc main_arg1))) := by
  refine ((W13_arr m ρ c 2).trans (Final.final4 (V12 m ρ) c)).trans ?_
  show gmm 3072 (W12 m ρ c (Proc.devRef .tc main_v26)) (W12 m ρ c (Proc.devRef .tc main_v2)) = _
  rw [W12_v26, stage2_val, W12_v2, W4_v2]

theorem W14_v29 : W14 m ρ c (Proc.devRef .tc main_v29)
    = shapeCast _ (shapeCast _ (W13 m ρ c (Proc.devRef .tc main_v27)) shapeCasts_S3072x16000_S192x16x1000x16) shapeCasts_S192x16x1000x16_S192000x256 := by
  dsimp only [W14, hostOps5]
  after_results <;> rfl

theorem W15_v30 : W15 m ρ c (Proc.devRef .tc main_v30)
    = denseC (shapeCast _ (shapeCast _ (gmm 3072 (shapeCast _ (kstage2 (kstage1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg8)) (m ((c : Thread nD τ).loc main_arg9))) shapeCasts_S192x16x1000_S3072x1000) (oneHotM (m ((c : Thread nD τ).loc main_arg1)))) shapeCasts_S3072x16000_S192x16x1000x16) shapeCasts_S192x16x1000x16_S192000x256)
        (wT3 (m ((c : Thread nD τ).loc main_arg6))) (m ((c : Thread nD τ).loc main_arg7)) := by
  refine ((W15_arr m ρ c 3).trans (Final.final5 (V14 m ρ) c)).trans ?_
  show denseC (W14 m ρ c (Proc.devRef .tc main_v29)) (W14 m ρ c (Proc.devRef .tc main_v8)) (W14 m ρ c (Proc.devRef .tc main_arg7)) = _
  rw [W14_v29, W13_v27, W14_v8, W4_v8, W14_arg7, W4_arg7]

theorem W16_v31 : W16 m ρ c (Proc.devRef .tc main_v31) = shapeCast _ (W15 m ρ c (Proc.devRef .tc main_v30)) shapeCasts_S192000x1_S8x24x1000 := by
  dsimp only [W16, hostOps6]
  after_results <;> rfl

/-- THE KERNEL'S RESULT: the three stages of the specification applied to the arguments. -/
theorem kernel_value : W16 m ρ c (Proc.devRef .tc main_v31) = kstage3 (kstage2 (kstage1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg8)) (m ((c : Thread nD τ).loc main_arg9))) (m ((c : Thread nD τ).loc main_arg1)) (m ((c : Thread nD τ).loc main_arg6)) (m ((c : Thread nD τ).loc main_arg7)) := by
  rw [W16_v31, W15_v30]; rfl

end Cert.KernelIdeal.KValue

end
-- ==== Proof.PreNonneg.lean ====
/-
  What the precondition says of the neighbour table: every id is not negative (read as a signed 32-bit integer).
-/
import proofs.«410030_j78323023610545_3_alg».proof.Pre_finite_inputs
import proofs.«410030_j78323023610545_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Bridge

open Idealize.ShloMosaic Idealize.ShloMosaic.ValueIdx Cert.Pre_finite_inputs

/-- The shape with no axes has one index. -/
instance subsingleton_S_Idx : Subsingleton S_.Idx := ⟨fun a b => funext fun d => d.elim0⟩

theorem nonneg_of_pre (a0 : FVec Ideal S8x24x1000x1 .f32) (a1 : IVec S1000x16 32) (a2 : FVec Ideal S32x16 .f32) (a3 : FVec Ideal S32 .f32)
    (a4 : FVec Ideal S16x512 .f32) (a5 : FVec Ideal S16 .f32) (a6 : FVec Ideal S1x256 .f32) (a7 : FVec Ideal S1 .f32) (a8 a9 : FVec Ideal S16 .f32)
    (h : Cert.Pre_finite_inputs.fn (F := Ideal) a0 a1 a2 a3 a4 a5 a6 a7 a8 a9 = fun _ => 1#1) : ∀ i, 0 ≤ (a1 i).toInt := by
  intro i
  -- the claim at the one index of the result
  have e := congrFun h ValueIdx.ix0
  dsimp only [Cert.Pre_finite_inputs.fn, Cert.Pre_finite_inputs.fn_part1, Cert.Pre_finite_inputs.fn_part2] at e
  -- the result is a conjunction whose last conjunct is the reduction by "and" of the signed compares id ≥ 0
  change IntOp.andi _ _ = 1#1 at e
  have e2 := (IntOp.andi_eq_one.1 e).2
  -- a reduction by "and" over every axis that is 1 met a 1 at every index
  have hi := Host.reduce_andi_all _ _ _ _ _ e2 i
  -- the compare at i is of a1 i with the constant 0
  change IntOp.cmpi .sge (a1 i) 0#32 = 1#1 at hi
  rw [IntOp.cmpi_sge] at hi
  exact hi

end Cert.Bridge

end
-- ==== Proof.OneHotPick.lean ====
/-
  The product of a feature matrix with the one-hot selection matrix picks one column of the features: column
  `n·16 + k` of the product is the feature column of the node that neighbour slot `(n, k)` names.
-/
import proofs.«410030_j78323023610545_3_alg».proof.Proof.KSpec
import Idealize.ShloMosaic.Lib.Pipeline.Value
import Idealize.ShloMosaic.Lib.StableHlo.Predicate

noncomputable section

namespace Cert.Bridge

open Idealize.ShloMosaic Idealize.ShloMosaic.ValueIdx Cert.KernelIdeal Cert.KernelIdeal.Facts₀ Cert.KernelIdeal.Facts

/-- A word that is not negative, clipped into `[0, 999]`, is the word of the smaller of its value and 999. -/
theorem clip_word (b : BitVec 32) (hb : 0 ≤ b.toInt) :
    IntOp.minsi 999#32 (IntOp.maxsi 0#32 b) = BitVec.ofNat 32 (min b.toInt.toNat 999) := by
  have hlt : b.toNat < 2 ^ 31 := by
    by_contra hge
    have : b.toInt < 0 := by
      rw [BitVec.toInt_eq_toNat_cond, if_neg (by omega)]
      have := b.isLt
      omega
    omega
  have hti : b.toInt = (b.toNat : Int) := StableHlo.Predicate.toInt_eq_toNat_of_lt hlt
  have h0 : (0#32 : BitVec 32).toInt = 0 := by decide
  have h999 : (999#32 : BitVec 32).toInt = 999 := by decide
  have hmax : IntOp.maxsi 0#32 b = b := by
    unfold IntOp.maxsi
    rw [if_neg]
    simp only [BitVec.slt, h0, hti, decide_eq_true_eq]
    omega
  rw [hmax]
  unfold IntOp.minsi
  split <;> rename_i hc <;> simp only [BitVec.slt, h999, hti, decide_eq_true_eq] at hc
  · apply BitVec.eq_of_toNat_eq
    rw [hti, BitVec.toNat_ofNat, BitVec.toNat_ofNat]
    have : min ((b.toNat : Int)).toNat 999 = 999 := by omega
    rw [this]
  · apply BitVec.eq_of_toNat_eq
    rw [hti, BitVec.toNat_ofNat]
    have : min ((b.toNat : Int)).toNat 999 = b.toNat := by omega
    rw [this]
    exact (Nat.mod_eq_of_lt b.isLt).symm

/-- The clipped id in slot `n·16 + k` is the word of the node that slot names. -/
theorem clipped_apply (nb : IVec S1000x16 32) (hnn : ∀ i, 0 ≤ (nb i).toInt)
    (n : Fin 1000) (k : Fin 16) (j : Fin 16000) (hj : j.val = n.val * 16 + k.val) :
    clipped nb (ix1 j) = BitVec.ofNat 32 (node nb n k).val := by
  have hread : shapeCast S16000 nb shapeCasts_S1000x16_S16000 (ix1 j) = nb (ix2 n k) := by
    refine shapeCast_apply nb shapeCasts_S1000x16_S16000 (ix1 j) (ix2 n k) ?_
    rw [Shape.rowMajor_val_two, Shape.rowMajor_val_one]
    show n.val * 16 + k.val = j.val
    omega
  show IntOp.minsi 999#32 (IntOp.maxsi 0#32 (shapeCast S16000 nb shapeCasts_S1000x16_S16000 (ix1 j))) = _
  rw [hread, clip_word _ (hnn _)]
  rfl

/-- Entry `(q, n·16 + k)` of the selection matrix is 1 when `q` is the node slot `(n, k)` names, else 0. -/
theorem oneHotM_apply (nb : IVec S1000x16 32) (hnn : ∀ i, 0 ≤ (nb i).toInt)
    (n : Fin 1000) (k : Fin 16) (j : Fin 16000) (hj : j.val = n.val * 16 + k.val) (q : Fin 1000) :
    oneHotM nb (ix2 q j) = if q = node nb n k then (1 : EReal) else 0 := by
  have hrow : broadcastInDim S1000x16000 ![0, 1] bcast_S1x16000_S1000x16000_0_1
      (broadcastInDim S1x16000 ![1] bcast_S16000_S1x16000_1 (clipped nb)) (ix2 q j) = clipped nb (ix1 j) := by
    rw [broadcastInDim_apply ![0, 1] bcast_S1x16000_S1000x16000_0_1 _ (ix2 q j) (ix2 (0 : Fin 1) j)
      (by intro a; match a with | ⟨0, _⟩ => rfl | ⟨1, _⟩ => rfl)]
    exact broadcastInDim_apply ![1] bcast_S16000_S1x16000_1 _ (ix2 (0 : Fin 1) j) (ix1 j)
      (by intro a; match a with | ⟨0, _⟩ => rfl)
  have hcol : broadcastInDim S1000x16000 ![0, 1] bcast_S1000x1_S1000x16000_0_1 (iotaInDim S1000x1 32 0) (ix2 q j)
      = BitVec.ofNat 32 q.val := by
    rw [broadcastInDim_apply ![0, 1] bcast_S1000x1_S1000x16000_0_1 _ (ix2 q j) (ix2 q (0 : Fin 1))
      (by intro a; match a with | ⟨0, _⟩ => rfl | ⟨1, _⟩ => rfl)]
    rfl
  show FloatOps.uitofp (F := Ideal) .bf16 (IntOp.cmpi .eq
      (broadcastInDim S1000x16000 ![0, 1] bcast_S1x16000_S1000x16000_0_1
        (broadcastInDim S1x16000 ![1] bcast_S16000_S1x16000_1 (clipped nb)) (ix2 q j))
      (broadcastInDim S1000x16000 ![0, 1] bcast_S1000x1_S1000x16000_0_1 (iotaInDim S1000x1 32 0) (ix2 q j))) = _
  rw [hrow, hcol, clipped_apply nb hnn n k j hj]
  show (((IntOp.cmpi .eq (BitVec.ofNat 32 (node nb n k).val) (BitVec.ofNat 32 q.val)).toNat : ℝ) : EReal) = _
  by_cases hq : q = node nb n k
  · rw [if_pos hq, hq, StableHlo.Predicate.cmpi_eq_iff.mpr rfl]
    simp
  · rw [if_neg hq]
    have hne : ¬ (IntOp.cmpi .eq (BitVec.ofNat 32 (node nb n k).val) (BitVec.ofNat 32 q.val) = 1#1) := by
      rw [StableHlo.Predicate.cmpi_eq_iff]
      intro he
      apply hq
      have h1 := congrArg BitVec.toNat he
      rw [BitVec.toNat_ofNat, BitVec.toNat_ofNat] at h1
      have hq' := q.isLt
      have hn' := (node nb n k).isLt
      apply Fin.ext
      omega
    rw [eq_zero_of_ne_one hne]
    simp

theorem gmm_oneHot (R : Nat) (x : (⟨2, ![R, 1000]⟩ : Shape).Idx → EReal) (nb : IVec S1000x16 32) (hnn : ∀ i, 0 ≤ (nb i).toInt)
    (r : Fin R) (n : Fin 1000) (k : Fin 16) (j : Fin 16000) (hj : j.val = n.val * 16 + k.val) :
    gmm R x (oneHotM nb) (ix2 r j) = x (ix2 r (node nb n k)) := by
  show ∑ q : Fin 1000, x (ix2 r q) * oneHotM nb (ix2 q j) = _
  rw [Finset.sum_eq_single (node nb n k)]
  · rw [oneHotM_apply nb hnn n k j hj, if_pos rfl, mul_one]
  · intro q _ hq
    rw [oneHotM_apply nb hnn n k j hj, if_neg hq, mul_zero]
  · intro h
    exact absurd (Finset.mem_univ _) h

end Cert.Bridge

end
-- ==== Proof.LibGatherLastAxis.lean ====
/-
  A general lemma: a gather along the last axis of a rank-3 operand, read at an index.

  `x[:, :, idx]` for an operand `[B, C, N]` and an integer table `idx : [R, K]` lowers to a gather whose result
  `[B, C, R, K]` takes whole slices of the operand's first two axes and one entry of its last axis, the entry the table
  names — read as a signed integer and clamped into `[0, N − 1]`. Stated for any record with those dimension numbers,
  whatever the sizes and the index width.
-/
import Idealize.ShloMosaic.PureOps.ShapeOps
import Idealize.ShloMosaic.Lib.ValueIdx

noncomputable section

namespace Cert.Lib

open Idealize.ShloMosaic Idealize.ShloMosaic.ValueIdx

/-- A GATHER ALONG THE LAST AXIS, READ AT AN INDEX. For an operand `[B, C, N]`, a table of start indices `[R, K, 1]`
    and a result `[B, C, R, K]`, with the result's first two axes the offset axes (whole slices of the operand's first two
    axes), the operand's last axis collapsed and the only one the start index names, and the index vector on the table's
    last axis: result entry `(bt, c, n, k)` is the operand at `(bt, c, m)`, where `m` is the table's entry `(n, k, 0)`
    read as a signed integer and clamped into `[0, N − 1]` (a negative index reads entry 0, one past the end reads the
    last). The hypotheses on the dimension numbers state the printed
    ones; no hypothesis on the slice sizes is needed (a collapsed axis has slice size 1). -/
theorem gather_last_apply {α : Type} {B C N R K w : Nat} (hN : 0 < N)
    (d : GatherDims ⟨3, ![B, C, N]⟩ ⟨3, ![R, K, 1]⟩ ⟨4, ![B, C, R, K]⟩)
    (hoff : d.offsetDims = [0, 1]) (hcoll : d.collapsedSliceDims = [2]) (hob : d.operandBatchingDims = [])
    (hsim : d.startIndexMap = [2]) (hivd : d.indexVectorDim = 2)
    (x : (⟨3, ![B, C, N]⟩ : Shape).Idx → α) (idx : IVec ⟨3, ![R, K, 1]⟩ w)
    (bt : Fin B) (c : Fin C) (n : Fin R) (k : Fin K) :
    Host.gather d x idx (ix4 bt c n k)
      = x (ix3 bt c ⟨min (idx (ix3 n k (0 : Fin 1))).toInt.toNat (N - 1), by omega⟩) := by
  have hss : d.sliceSizes 2 = 1 := d.slice_collapsed 2 (by rw [hcoll]; exact List.mem_singleton.mpr rfl)
  obtain ⟨od, cd, ob, sb, sm, iv, ss, wf⟩ := d
  simp only at hoff hcoll hob hsim hivd hss
  subst hoff hcoll hob hsim hivd
  unfold Host.gather
  congr 1
  funext a
  refine Fin.ext ?_
  match a with
  | ⟨0, _⟩ =>
    show GatherDims.start _ _ idx 0 + GatherDims.batchCoord _ _ 0 + GatherDims.offCoord _ _ 0 = bt.val
    rw [GatherDims.batchCoord_eq_zero _ _ _ List.not_mem_nil]
    unfold GatherDims.start GatherDims.offCoord
    rw [dif_neg (show (0 : Fin 3) ∉ ([2] : List (Fin 3)) from by decide),
      dif_pos ((GatherDims.mem_sKept _ _).2 ⟨(show (0 : Fin 3) ∉ ([2] : List (Fin 3)) from by decide), List.not_mem_nil⟩)]
    rw [Nat.zero_add]
    rfl
  | ⟨1, _⟩ =>
    show GatherDims.start _ _ idx 1 + GatherDims.batchCoord _ _ 1 + GatherDims.offCoord _ _ 1 = c.val
    rw [GatherDims.batchCoord_eq_zero _ _ _ List.not_mem_nil]
    unfold GatherDims.start GatherDims.offCoord
    rw [dif_neg (show (1 : Fin 3) ∉ ([2] : List (Fin 3)) from by decide),
      dif_pos ((GatherDims.mem_sKept _ _).2 ⟨(show (1 : Fin 3) ∉ ([2] : List (Fin 3)) from by decide), List.not_mem_nil⟩)]
    rw [Nat.zero_add]
    rfl
  | ⟨2, _⟩ =>
    show GatherDims.start _ _ idx 2 + GatherDims.batchCoord _ _ 2 + GatherDims.offCoord _ _ 2
      = min (idx (ix3 n k (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (2 : Fin 3) ∈ ([2] : List (Fin 3)) from List.mem_singleton.mpr rfl)]
    have hsi : GatherDims.siIdx
        (⟨[0, 1], [2], [], sb, [2], 2, ss, wf⟩ : GatherDims ⟨3, ![B, C, N]⟩ ⟨3, ![R, K, 1]⟩ ⟨4, ![B, C, R, K]⟩)
        (ix4 bt c n k) ⟨List.idxOf (2 : Fin 3) [2], List.idxOf_lt_length_iff.2 (List.mem_singleton.mpr rfl)⟩
        = ix3 n k (0 : Fin 1) := by
      funext b; refine Fin.ext ?_
      match b with
      | ⟨0, _⟩ => rfl
      | ⟨1, _⟩ => rfl
      | ⟨2, _⟩ => rfl
    rw [hsi]
    show min _ (N - ss 2) + 0 + 0 = _
    rw [hss]
    rfl

end Cert.Lib

end
-- ==== Proof.GatherRead.lean ====
/-
  The reference's gather `x[:, :, neighbors]` read at an index: entry `(bt, c, n, k)` is the operand at
  `(bt, c, node)`, the node being neighbour slot `(n, k)`'s id (not negative by hypothesis, so not wrapped) capped at
  the last node.
-/
import proofs.«410030_j78323023610545_3_alg».proof.Proof.KSpec
import proofs.«410030_j78323023610545_3_alg».proof.Proof.LibGatherLastAxis
import proofs.«410030_j78323023610545_3_alg».proof.Proof.Gen.ReferenceIdeal.Read
import Idealize.ShloMosaic.Lib.Pipeline.Value
import Idealize.ShloMosaic.Lib.StableHlo.Predicate

noncomputable section

namespace Cert.Bridge

open Idealize.ShloMosaic Idealize.ShloMosaic.ValueIdx Cert.Lib

/-- A word that is not negative as a signed integer is not below zero, so the wrap `id < 0 ? id + 1000 : id` keeps it. -/
theorem wrap_of_nonneg (b : BitVec 32) (h : 0 ≤ b.toInt) :
    Scalar.select (IntOp.cmpi .slt b 0#32) (IntOp.addi b 1000#32) b = b := by
  have hs : b.slt 0#32 = false := by
    unfold BitVec.slt
    exact decide_eq_false (by rw [BitVec.toInt_zero]; omega)
  have hc : IntOp.cmpi .slt b 0#32 = 0#1 := by
    unfold IntOp.cmpi
    show BitVec.ofBool (b.slt 0#32) = 0#1
    rw [hs]; rfl
  rw [hc, select_zero]

/-- The reference's table of start indices at `(n, k, 0)`: the neighbour id itself, when no id is negative. -/
theorem index_word (nb : IVec Cert.ReferenceIdeal.S1000x16 32) (hnn : ∀ i, 0 ≤ (nb i).toInt) (n : Fin 1000) (k : Fin 16) :
    Cert.ReferenceIdeal.Read.val_main_v6 (F := Ideal) nb (ix3 n k (0 : Fin 1)) = nb (ix2 n k) := by
  have hi : Cert.ReferenceIdeal.Read.idx_main_v6 (ix3 n k (0 : Fin 1)) = ix2 n k := by
    funext a; match a with | ⟨0, _⟩ => rfl | ⟨1, _⟩ => rfl
  rw [Cert.ReferenceIdeal.Read.val_main_v6_apply, hi, Cert.ReferenceIdeal.Read.val_main_v5_apply,
    Cert.ReferenceIdeal.Read.val_main_v2_apply, Cert.ReferenceIdeal.Read.val_main_v4_apply,
    Cert.ReferenceIdeal.Read.val_main_v1_apply, Cert.ReferenceIdeal.Read.val_main_v3_apply,
    Cert.ReferenceIdeal.Read.val_main_c_apply, Cert.ReferenceIdeal.Read.val_main_c_0_apply]
  exact wrap_of_nonneg _ (hnn _)

/-- The three tables of start indices are one expression, printed three times. -/
theorem table20_eq (nb : IVec Cert.ReferenceIdeal.S1000x16 32) :
    Cert.ReferenceIdeal.Read.val_main_v20 (F := Ideal) nb = Cert.ReferenceIdeal.Read.val_main_v6 (F := Ideal) nb := rfl
theorem table44_eq (nb : IVec Cert.ReferenceIdeal.S1000x16 32) :
    Cert.ReferenceIdeal.Read.val_main_v44 (F := Ideal) nb = Cert.ReferenceIdeal.Read.val_main_v6 (F := Ideal) nb := rfl

/-- The clamped start index of slot `(n, k)` is the slot's node. -/
theorem start_eq_node (nb : IVec Cert.ReferenceIdeal.S1000x16 32) (hnn : ∀ i, 0 ≤ (nb i).toInt) (n : Fin 1000) (k : Fin 16)
    (h : min (Cert.ReferenceIdeal.Read.val_main_v6 (F := Ideal) nb (ix3 n k (0 : Fin 1))).toInt.toNat (1000 - 1) < 1000) :
    (⟨min (Cert.ReferenceIdeal.Read.val_main_v6 (F := Ideal) nb (ix3 n k (0 : Fin 1))).toInt.toNat (1000 - 1), h⟩ : Fin 1000)
      = node nb n k := by
  refine Fin.ext ?_
  show min _ (1000 - 1) = min (nb (ix2 n k)).toInt.toNat 999
  rw [index_word nb hnn n k]

theorem gather_ref1 (A : FVec Ideal Cert.ReferenceIdeal.S192x1x1000 .f32) (nb : IVec Cert.ReferenceIdeal.S1000x16 32) (hnn : ∀ i, 0 ≤ (nb i).toInt)
    (bt : Fin 192) (c : Fin 1) (n : Fin 1000) (k : Fin 16) :
    Host.gather Cert.ReferenceIdeal.gather_S192x1x1000_S1000x16x1_S192x1x1000x16_01_2_n_n_2_2_19211 A
      (Cert.ReferenceIdeal.Read.val_main_v6 (F := Ideal) nb) (ix4 bt c n k) = A (ix3 bt c (node nb n k)) := by
  rw [gather_last_apply (B := 192) (C := 1) (N := 1000) (R := 1000) (K := 16) (by decide) _ rfl rfl rfl rfl rfl A _ bt c n k,
    start_eq_node nb hnn n k]

theorem gather_ref2 (A : FVec Ideal Cert.ReferenceIdeal.S192x32x1000 .f32) (nb : IVec Cert.ReferenceIdeal.S1000x16 32) (hnn : ∀ i, 0 ≤ (nb i).toInt)
    (bt : Fin 192) (c : Fin 32) (n : Fin 1000) (k : Fin 16) :
    Host.gather Cert.ReferenceIdeal.gather_S192x32x1000_S1000x16x1_S192x32x1000x16_01_2_n_n_2_2_192321 A
      (Cert.ReferenceIdeal.Read.val_main_v20 (F := Ideal) nb) (ix4 bt c n k) = A (ix3 bt c (node nb n k)) := by
  rw [table20_eq,
    gather_last_apply (B := 192) (C := 32) (N := 1000) (R := 1000) (K := 16) (by decide) _ rfl rfl rfl rfl rfl A _ bt c n k,
    start_eq_node nb hnn n k]

theorem gather_ref3 (A : FVec Ideal Cert.ReferenceIdeal.S192x16x1000 .f32) (nb : IVec Cert.ReferenceIdeal.S1000x16 32) (hnn : ∀ i, 0 ≤ (nb i).toInt)
    (bt : Fin 192) (c : Fin 16) (n : Fin 1000) (k : Fin 16) :
    Host.gather Cert.ReferenceIdeal.gather_S192x16x1000_S1000x16x1_S192x16x1000x16_01_2_n_n_2_2_192161 A
      (Cert.ReferenceIdeal.Read.val_main_v44 (F := Ideal) nb) (ix4 bt c n k) = A (ix3 bt c (node nb n k)) := by
  rw [table44_eq,
    gather_last_apply (B := 192) (C := 16) (N := 1000) (R := 1000) (K := 16) (by decide) _ rfl rfl rfl rfl rfl A _ bt c n k,
    start_eq_node nb hnn n k]

end Cert.Bridge

end
-- ==== Proof.Stage1.lean ====
/-
  Stage 1: the kernel's first hidden features are the reference's, entry by entry.

  Both sides, read at `(bt, o, n)`, are `max (∑ f, x0[bt / 24, bt % 24, node n f, 0] · W1[o, f] + b1[o]) 0`:
  the kernel reaches it through the selection-matrix product (one column of the features per neighbour slot), the
  reference through its gather; every reshape in between keeps the row-major position.
-/
import proofs.«410030_j78323023610545_3_alg».proof.Proof.KSpec
import proofs.«410030_j78323023610545_3_alg».proof.Proof.OneHotPick
import proofs.«410030_j78323023610545_3_alg».proof.Proof.GatherRead
import proofs.«410030_j78323023610545_3_alg».proof.Proof.Gen.ReferenceIdeal.Read
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.ValueIdx Cert.KernelIdeal Cert.KernelIdeal.Facts₀ Cert.KernelIdeal.Facts
open Cert.ReferenceIdeal.Read (val_main_v14 val_main_v38 val_main_v52 val_main_v53)

/-- The input sequence entry that batch-time row `bt` and node `m` name: `x0[bt / 24, bt % 24, m, 0]`. -/
def xAt (x0 : FVec Ideal S8x24x1000x1 .f32) (bt : Fin 192) (m : Fin 1000) : EReal :=
  x0 (ix4 (⟨bt.val / 24, by omega⟩ : Fin 8) (⟨bt.val % 24, by omega⟩ : Fin 24) m (0 : Fin 1))

/-- The common value of both programs at `(bt, o, n)`. -/
def s1val (x0 : FVec Ideal S8x24x1000x1 .f32) (nb : IVec S1000x16 32) (W1 : FVec Ideal S32x16 .f32) (b1 : FVec Ideal S32 .f32)
    (bt : Fin 192) (o : Fin 32) (n : Fin 1000) : EReal :=
  max ((∑ f : Fin 16, xAt x0 bt (node nb n f) * W1 (ix2 o f)) + b1 (ix1 o)) (Ideal.ofBits .f32 0x00000000#32)

/-- The input reshaped to `[192, 1000]` at `(bt, m)`. -/
theorem x1_apply (x0 : FVec Ideal S8x24x1000x1 .f32) (bt : Fin 192) (m : Fin 1000) :
    shapeCast S192x1000 x0 shapeCasts_S8x24x1000x1_S192x1000 (ix2 bt m) = xAt x0 bt m := by
  unfold xAt
  refine shapeCast_apply x0 _ _ _ ?_
  rw [Shape.rowMajor_val_four, Shape.rowMajor_val_two]
  show ((bt.val / 24 * 24 + bt.val % 24) * 1000 + m.val) * 1 + 0 = bt.val * 1000 + m.val
  omega

/-- The transposed weights at `(f, o)`. -/
theorem wT1_apply (W1 : FVec Ideal S32x16 .f32) (f : Fin 16) (o : Fin 32) : wT1 W1 (ix2 f o) = W1 (ix2 o f) := by
  unfold wT1
  exact transpose_ix2_apply W1 transposes_S32x16_S16x32_1_0 f o

/-- The gathered rows, reshaped to `[192000, 16]`, at row `bt·1000 + n` and slot `f`. -/
theorem h1_apply (x0 : FVec Ideal S8x24x1000x1 .f32) (nb : IVec S1000x16 32) (hnn : ∀ i, 0 ≤ (nb i).toInt)
    (bt : Fin 192) (n : Fin 1000) (f : Fin 16) (row : Fin 192000) (hrow : row.val = bt.val * 1000 + n.val) :
    shapeCast S192000x16 (gmm 192 (shapeCast S192x1000 x0 shapeCasts_S8x24x1000x1_S192x1000) (oneHotM nb)) shapeCasts_S192x16000_S192000x16 (ix2 row f)
      = xAt x0 bt (node nb n f) := by
  have hj : n.val * 16 + f.val < 16000 := by omega
  refine (shapeCast_apply _ shapeCasts_S192x16000_S192000x16 _ (ix2 bt (⟨n.val * 16 + f.val, hj⟩ : Fin 16000)) ?_).trans ?_
  · rw [Shape.rowMajor_val_two, Shape.rowMajor_val_two]
    show bt.val * 16000 + (n.val * 16 + f.val) = row.val * 16 + f.val
    omega
  · refine (gmm_oneHot 192 _ nb hnn bt n f ⟨n.val * 16 + f.val, hj⟩ rfl).trans ?_
    exact x1_apply x0 bt (node nb n f)

/-- The kernel's stage 1 at `(bt, o, n)`. -/
theorem kstage1_apply (x0 : FVec Ideal S8x24x1000x1 .f32) (nb : IVec S1000x16 32) (W1 : FVec Ideal S32x16 .f32) (b1 : FVec Ideal S32 .f32)
    (hnn : ∀ i, 0 ≤ (nb i).toInt) (bt : Fin 192) (o : Fin 32) (n : Fin 1000) :
    kstage1 x0 nb W1 b1 (ix3 bt o n) = s1val x0 nb W1 b1 bt o n := by
  have hrow : bt.val * 1000 + n.val < 192000 := by omega
  unfold kstage1
  refine (transpose_ix3_021_apply _ transposes_S192x1000x32_S192x32x1000_0_2_1 bt o n).trans ?_
  refine (shapeCast_apply _ shapeCasts_S192000x32_S192x1000x32 _ (ix2 (⟨bt.val * 1000 + n.val, hrow⟩ : Fin 192000) o) ?_).trans ?_
  · rw [Shape.rowMajor_val_two, Shape.rowMajor_val_three]
    show (bt.val * 1000 + n.val) * 32 + o.val = (bt.val * 1000 + n.val) * 32 + o.val
    rfl
  · unfold denseA s1val
    show max ((∑ k : Fin 16, _ * _) + b1 (ix1 o)) _ = _
    refine congrArg (fun t => max (t + b1 (ix1 o)) (Ideal.ofBits .f32 0x00000000#32)) (Finset.sum_congr rfl fun f _ => ?_)
    exact congrArg₂ (· * ·) (h1_apply x0 nb hnn bt n f ⟨bt.val * 1000 + n.val, hrow⟩ rfl) (wT1_apply W1 f o)

/-- The reference's gathered and reshaped features at `(bt, n, f)`. -/
theorem ref_v8_apply (x0 : FVec Ideal S8x24x1000x1 .f32) (nb : IVec S1000x16 32) (hnn : ∀ i, 0 ≤ (nb i).toInt)
    (bt : Fin 192) (n : Fin 1000) (f : Fin 16) :
    Cert.ReferenceIdeal.Read.val_main_v8 (F := Ideal) x0 nb (ix3 bt n f) = xAt x0 bt (node nb n f) := by
  have e8 : Cert.ReferenceIdeal.Read.idx_main_v8 (ix3 bt n f) = ix4 bt (0 : Fin 1) n f := funext fun a => Fin.ext (by
    match a with
    | ⟨0, _⟩ => show ((bt.val * 1000 + n.val) * 16 + f.val) / 16000 = bt.val; omega
    | ⟨1, _⟩ => rfl
    | ⟨2, _⟩ => show ((bt.val * 1000 + n.val) * 16 + f.val) / 16 % 1000 = n.val; omega
    | ⟨3, _⟩ => show ((bt.val * 1000 + n.val) * 16 + f.val) % 16 = f.val; omega)
  have e0 : Cert.ReferenceIdeal.Read.idx_main_v0 (ix3 bt (0 : Fin 1) (node nb n f))
      = ix4 (⟨bt.val / 24, by omega⟩ : Fin 8) (⟨bt.val % 24, by omega⟩ : Fin 24) (node nb n f) (0 : Fin 1) := funext fun a => Fin.ext (by
    have hm : (node nb n f).val < 1000 := (node nb n f).isLt
    match a with
    | ⟨0, _⟩ => show ((bt.val * 1 + 0) * 1000 + (node nb n f).val) / 24000 = bt.val / 24; omega
    | ⟨1, _⟩ => show ((bt.val * 1 + 0) * 1000 + (node nb n f).val) / 1000 % 24 = bt.val % 24; omega
    | ⟨2, _⟩ => show ((bt.val * 1 + 0) * 1000 + (node nb n f).val) / 1 % 1000 = (node nb n f).val; omega
    | ⟨3, _⟩ => rfl)
  rw [Cert.ReferenceIdeal.Read.val_main_v8_apply, e8]
  unfold Cert.ReferenceIdeal.Read.val_main_v7
  refine (gather_ref1 _ nb hnn bt 0 n f).trans ?_
  rw [Cert.ReferenceIdeal.Read.val_main_v0_apply, e0]
  rfl

open Cert.ReferenceIdeal.Read in
/-- The reference's stage 1 at `(bt, o, n)`. -/
theorem ref1_apply (x0 : FVec Ideal S8x24x1000x1 .f32) (nb : IVec S1000x16 32) (W1 : FVec Ideal S32x16 .f32) (b1 : FVec Ideal S32 .f32)
    (hnn : ∀ i, 0 ≤ (nb i).toInt) (bt : Fin 192) (o : Fin 32) (n : Fin 1000) :
    val_main_v14 (F := Ideal) x0 nb W1 b1 (ix3 bt o n) = s1val x0 nb W1 b1 bt o n := by
  have e13 : idx_main_v13 (ix3 bt o n) = ix3 bt n o := funext fun a => match a with
    | ⟨0, _⟩ => rfl | ⟨1, _⟩ => rfl | ⟨2, _⟩ => rfl
  have eb : idx_main_v10 (idx_main_v11 (ix3 bt n o)) = ix1 o := funext fun a => match a with
    | ⟨0, _⟩ => rfl
  have el : ∀ f : Fin 16, lidx_main_v9 (ix3 bt n o) f = ix3 bt n f := fun f => funext fun a => match a with
    | ⟨0, _⟩ => rfl | ⟨1, _⟩ => rfl | ⟨2, _⟩ => rfl
  have er : ∀ f : Fin 16, ridx_main_v9 (ix3 bt n o) f = ix2 o f := fun f => funext fun a => match a with
    | ⟨0, _⟩ => rfl | ⟨1, _⟩ => rfl
  rw [val_main_v14_apply, val_main_v13_apply, val_main_v12_apply, val_main_v9_apply, val_main_v11_apply, val_main_v10_apply,
    val_main_call0_v0_apply, val_main_call0_cst_apply, e13, eb]
  unfold s1val
  show max ((∑ k : Fin 16, _ * _) + b1 (ix1 o)) _ = _
  refine congrArg (fun t => max (t + b1 (ix1 o)) (Ideal.ofBits .f32 0x00000000#32)) (Finset.sum_congr rfl fun f _ => ?_)
  rw [el f, er f, ref_v8_apply x0 nb hnn bt n f]

theorem stage1 (x0 : FVec Ideal S8x24x1000x1 .f32) (nb : IVec S1000x16 32) (W1 : FVec Ideal S32x16 .f32) (b1 : FVec Ideal S32 .f32)
    (hnn : ∀ i, 0 ≤ (nb i).toInt) :
    kstage1 x0 nb W1 b1 = val_main_v14 (F := Ideal) x0 nb W1 b1 := by
  funext i
  obtain ⟨bt, o, n, rfl⟩ : ∃ (bt : Fin 192) (o : Fin 32) (n : Fin 1000), i = ix3 bt o n := ⟨i 0, i 1, i 2, eq_ix3 i⟩
  exact (kstage1_apply x0 nb W1 b1 hnn bt o n).trans (ref1_apply x0 nb W1 b1 hnn bt o n).symm

end Cert.Bridge

end
-- ==== Proof.Stage2.lean ====
/-
  Stage 2: from equal first hidden features the kernel's second hidden features are the reference's.
-/
import proofs.«410030_j78323023610545_3_alg».proof.Proof.KSpec
import proofs.«410030_j78323023610545_3_alg».proof.Proof.OneHotPick
import proofs.«410030_j78323023610545_3_alg».proof.Proof.GatherRead
import proofs.«410030_j78323023610545_3_alg».proof.Proof.Gen.ReferenceIdeal.Read
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.ValueIdx Cert.KernelIdeal Cert.KernelIdeal.Facts₀ Cert.KernelIdeal.Facts
open Cert.ReferenceIdeal.Read (val_main_v14 val_main_v38 val_main_v52 val_main_v53)

/-- The gathered features the second dense layer reads: entry `(row, f)` of the `[192000, 512]` array sits at the flat
    position `row·512 + f`; written as `((B·32 + C)·1000 + N)·16 + K` it is the feature `(B, C)` of the node that
    neighbour slot `(N, K)` names. -/
theorem hidden2_apply (A : FVec Ideal S192x32x1000 .f32) (nb : IVec S1000x16 32) (hnn : ∀ i, 0 ≤ (nb i).toInt)
    (row : Fin 192000) (f : Fin 512) (B : Fin 192) (C : Fin 32) (N : Fin 1000) (K : Fin 16)
    (h : ((B.val * 32 + C.val) * 1000 + N.val) * 16 + K.val = row.val * 512 + f.val) :
    (shapeCast S192000x512 (shapeCast S192x32x1000x16 (gmm 6144 (shapeCast S6144x1000 A shapeCasts_S192x32x1000_S6144x1000) (oneHotM nb))
        shapeCasts_S6144x16000_S192x32x1000x16) shapeCasts_S192x32x1000x16_S192000x512 : FVec Ideal S192000x512 .bf16) (ix2 row f)
      = A (ix3 B C (node nb N K)) := by
  have hB := B.isLt; have hC := C.isLt; have hN := N.isLt; have hK := K.isLt
  refine (shapeCast_apply _ shapeCasts_S192x32x1000x16_S192000x512 (ix2 row f) (ix4 B C N K) ?_).trans ?_
  · rw [Shape.rowMajor_val_four, Shape.rowMajor_val_two]
    show ((B.val * 32 + C.val) * 1000 + N.val) * 16 + K.val = row.val * 512 + f.val
    exact h
  refine (shapeCast_apply _ shapeCasts_S6144x16000_S192x32x1000x16 (ix4 B C N K)
    (ix2 (⟨B.val * 32 + C.val, by omega⟩ : Fin 6144) (⟨N.val * 16 + K.val, by omega⟩ : Fin 16000)) ?_).trans ?_
  · rw [Shape.rowMajor_val_four, Shape.rowMajor_val_two]
    show (B.val * 32 + C.val) * 16000 + (N.val * 16 + K.val) = ((B.val * 32 + C.val) * 1000 + N.val) * 16 + K.val
    omega
  refine (gmm_oneHot 6144 _ nb hnn (⟨B.val * 32 + C.val, by omega⟩ : Fin 6144) N K (⟨N.val * 16 + K.val, by omega⟩ : Fin 16000) rfl).trans ?_
  refine shapeCast_apply A shapeCasts_S192x32x1000_S6144x1000 _ (ix3 B C (node nb N K)) ?_
  rw [Shape.rowMajor_val_three, Shape.rowMajor_val_two]
  show (B.val * 32 + C.val) * 1000 + (node nb N K).val = (B.val * 32 + C.val) * 1000 + (node nb N K).val
  rfl

/-- The flat position of entry `(bt, n, f)` of the gathered `[192, 1000, 512]` array. -/
def pos2 (bt : Fin 192) (n : Fin 1000) (f : Fin 512) : Nat := (bt.val * 1000 + n.val) * 512 + f.val

theorem pos2_lt (bt : Fin 192) (n : Fin 1000) (f : Fin 512) : pos2 bt n f < 98304000 := by
  have hbt := bt.isLt; have hn := n.isLt; have hf := f.isLt
  unfold pos2; omega

/-- The coordinates of that position in the `[192, 32, 1000, 16]` arrangement: batch, feature, node, neighbour slot. -/
def pB (bt : Fin 192) (n : Fin 1000) (f : Fin 512) : Fin 192 := ⟨pos2 bt n f / 512000, by have := pos2_lt bt n f; omega⟩
def pC (bt : Fin 192) (n : Fin 1000) (f : Fin 512) : Fin 32 := ⟨pos2 bt n f / 16000 % 32, by omega⟩
def pN (bt : Fin 192) (n : Fin 1000) (f : Fin 512) : Fin 1000 := ⟨pos2 bt n f / 16 % 1000, by omega⟩
def pK (bt : Fin 192) (n : Fin 1000) (f : Fin 512) : Fin 16 := ⟨pos2 bt n f % 16, by omega⟩

theorem pos2_split (bt : Fin 192) (n : Fin 1000) (f : Fin 512) :
    (((pB bt n f).val * 32 + (pC bt n f).val) * 1000 + (pN bt n f).val) * 16 + (pK bt n f).val = (bt.val * 1000 + n.val) * 512 + f.val := by
  have h := pos2_lt bt n f
  show ((pos2 bt n f / 512000 * 32 + pos2 bt n f / 16000 % 32) * 1000 + pos2 bt n f / 16 % 1000) * 16 + pos2 bt n f % 16 = pos2 bt n f
  omega

/-- Dense layer 2 read at `(row, o)`. -/
theorem denseB_apply (h : FVec Ideal S192000x512 .bf16) (w : FVec Ideal S512x16 .bf16) (b s be : FVec Ideal S16 .f32) (row : Fin 192000) (o : Fin 16) :
    denseB h w b s be (ix2 row o)
      = max (((∑ k : Fin 512, h (ix2 row k) * w (ix2 k o)) + b (ix1 o)) * s (ix1 o) + be (ix1 o)) (Ideal.ofBits .f32 0x00000000#32) := rfl

/-- The reference's second hidden features read at `(bt, o, n)`: the dense layer over the 512 gathered entries of
    row `(bt, n)`, the gather still unread. -/
theorem ref2_apply (x0 : FVec Ideal S8x24x1000x1 .f32) (nb : IVec S1000x16 32) (W1 : FVec Ideal S32x16 .f32) (b1 : FVec Ideal S32 .f32)
    (W2 : FVec Ideal S16x512 .f32) (b2 gamma beta : FVec Ideal S16 .f32) (bt : Fin 192) (o : Fin 16) (n : Fin 1000) :
    val_main_v38 (F := Ideal) x0 nb W1 b1 W2 b2 gamma beta (ix3 bt o n)
      = max (((∑ f : Fin 512, Cert.ReferenceIdeal.Read.val_main_v21 (F := Ideal) x0 nb W1 b1 (ix4 (pB bt n f) (pC bt n f) (pN bt n f) (pK bt n f)) * W2 (ix2 o f))
          + b2 (ix1 o)) * bnScale gamma (ix1 o) + beta (ix1 o)) (Ideal.ofBits .f32 0x00000000#32) := by
  open Cert.ReferenceIdeal.Read in
  have e24 : idx_main_v24 (idx_main_v25 (idx_main_v27 (ix3 bt o n))) = ix1 o := funext fun a => by match a with | ⟨0, _⟩ => rfl
  open Cert.ReferenceIdeal.Read in
  have e32 : idx_main_v32 (idx_main_v33 (ix3 bt o n)) = ix1 o := funext fun a => by match a with | ⟨0, _⟩ => rfl
  open Cert.ReferenceIdeal.Read in
  have e35 : idx_main_v35 (idx_main_v36 (ix3 bt o n)) = ix1 o := funext fun a => by match a with | ⟨0, _⟩ => rfl
  open Cert.ReferenceIdeal.Read in
  have er : ∀ f : Fin 512, ridx_main_v23 (idx_main_v27 (ix3 bt o n)) f = ix2 o f := fun f => funext fun a => by
    match a with | ⟨0, _⟩ => rfl | ⟨1, _⟩ => rfl
  open Cert.ReferenceIdeal.Read in
  have el : ∀ f : Fin 512, idx_main_v22 (lidx_main_v23 (idx_main_v27 (ix3 bt o n)) f) = ix4 (pB bt n f) (pC bt n f) (pN bt n f) (pK bt n f) :=
    fun f => funext fun a => by match a with | ⟨0, _⟩ => rfl | ⟨1, _⟩ => rfl | ⟨2, _⟩ => rfl | ⟨3, _⟩ => rfl
  open Cert.ReferenceIdeal.Read in
  rw [val_main_v38_apply, val_main_v37_apply, val_main_v34_apply, val_main_v27_apply, val_main_v26_apply, val_main_v23_apply,
    val_main_v25_apply, val_main_v24_apply, val_main_v33_apply, val_main_v32_apply, val_main_v36_apply, val_main_v35_apply,
    val_main_call1_v0_apply, val_main_call1_cst_apply, e24, e32, e35]
  open Cert.ReferenceIdeal.Read in
  simp only [val_main_v22_apply, el, er]
  rfl

theorem stage2 (x0 : FVec Ideal S8x24x1000x1 .f32) (nb : IVec S1000x16 32) (W1 : FVec Ideal S32x16 .f32) (b1 : FVec Ideal S32 .f32)
    (W2 : FVec Ideal S16x512 .f32) (b2 gamma beta : FVec Ideal S16 .f32) (hnn : ∀ i, 0 ≤ (nb i).toInt) :
    kstage2 (val_main_v14 (F := Ideal) x0 nb W1 b1) nb W2 b2 gamma beta = val_main_v38 (F := Ideal) x0 nb W1 b1 W2 b2 gamma beta := by
  funext i
  obtain ⟨bt, o, n, rfl⟩ : ∃ (bt : Fin 192) (o : Fin 16) (n : Fin 1000), i = ix3 bt o n := ⟨i 0, i 1, i 2, eq_ix3 i⟩
  have hbt := bt.isLt; have ho := o.isLt; have hn := n.isLt
  refine Eq.trans ?_ (ref2_apply x0 nb W1 b1 W2 b2 gamma beta bt o n).symm
  unfold kstage2
  refine (transpose_apply [0, 2, 1] _ transposes_S192x1000x16_S192x16x1000_0_2_1 (ix3 bt o n) (ix3 bt n o)
    (fun b => match b with | ⟨0, _⟩ => rfl | ⟨1, _⟩ => rfl | ⟨2, _⟩ => rfl)).trans ?_
  refine (shapeCast_apply _ shapeCasts_S192000x16_S192x1000x16 (ix3 bt n o) (ix2 (⟨bt.val * 1000 + n.val, by omega⟩ : Fin 192000) o) ?_).trans ?_
  · rw [Shape.rowMajor_val_three, Shape.rowMajor_val_two]
    rfl
  refine (denseB_apply _ _ _ _ _ (⟨bt.val * 1000 + n.val, by omega⟩ : Fin 192000) o).trans ?_
  refine congrArg (fun t => max ((t + b2 (ix1 o)) * bnScale gamma (ix1 o) + beta (ix1 o)) (Ideal.ofBits .f32 0x00000000#32)) ?_
  refine Finset.sum_congr rfl fun f _ => ?_
  refine congrArg₂ (· * ·) ?_ ?_
  · exact (hidden2_apply _ nb hnn (⟨bt.val * 1000 + n.val, by omega⟩ : Fin 192000) f (pB bt n f) (pC bt n f) (pN bt n f) (pK bt n f) (pos2_split bt n f)).trans
      (gather_ref2 (val_main_v14 (F := Ideal) x0 nb W1 b1) nb hnn (pB bt n f) (pC bt n f) (pN bt n f) (pK bt n f)).symm
  · exact transpose_apply [1, 0] W2 transposes_S16x512_S512x16_1_0 (ix2 f o) (ix2 o f) (fun b => match b with | ⟨0, _⟩ => rfl | ⟨1, _⟩ => rfl)

end Cert.Bridge

end
-- ==== Proof.Stage3.lean ====
/-
  Stage 3: from equal second hidden features the kernel's result is the reference's.

  Both sides are, at the result index (b, t, n) with row = (b·24 + t)·1000 + n,
    max (∑ f < 256, A(bt', c', node(n', k')) · W3(0, f) + b3(0)) 0,
  where the flat position P = row·256 + f splits as bt' = P / 256000, c' = P / 16000 % 16, n' = P / 16 % 1000,
  k' = P % 16. The kernel reaches the gathered entry through the product with the one-hot selection matrix and
  two row-major reshapes; the reference through its gather and one row-major reshape.
-/
import proofs.«410030_j78323023610545_3_alg».proof.Proof.KSpec
import proofs.«410030_j78323023610545_3_alg».proof.Proof.OneHotPick
import proofs.«410030_j78323023610545_3_alg».proof.Proof.GatherRead
import proofs.«410030_j78323023610545_3_alg».proof.Proof.Gen.ReferenceIdeal.Read
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.ValueIdx Cert.KernelIdeal Cert.KernelIdeal.Facts₀ Cert.KernelIdeal.Facts
open Cert.ReferenceIdeal.Read (val_main_v14 val_main_v38 val_main_v52 val_main_v53)

/-- The four coordinates of the flat position `row·256 + f` in the gathered array `[192, 16, 1000, 16]`. -/
def g3bt (row : Fin 192000) (f : Fin 256) : Fin 192 := ⟨(row.val * 256 + f.val) / 256000, by have := row.isLt; have := f.isLt; omega⟩
def g3c (row : Fin 192000) (f : Fin 256) : Fin 16 := ⟨(row.val * 256 + f.val) / 16000 % 16, by omega⟩
def g3n (row : Fin 192000) (f : Fin 256) : Fin 1000 := ⟨(row.val * 256 + f.val) / 16 % 1000, by omega⟩
def g3k (row : Fin 192000) (f : Fin 256) : Fin 16 := ⟨(row.val * 256 + f.val) % 16, by omega⟩

/-- The kernel's gathered row entry: the product with the selection matrix, reshaped twice, read at `(row, f)`. -/
theorem gathered3_apply (A : FVec Ideal S192x16x1000 .f32) (nb : IVec S1000x16 32) (hnn : ∀ i, 0 ≤ (nb i).toInt)
    (row : Fin 192000) (f : Fin 256) :
    (shapeCast S192000x256 (shapeCast S192x16x1000x16 (gmm 3072 (shapeCast _ A shapeCasts_S192x16x1000_S3072x1000) (oneHotM nb)) shapeCasts_S3072x16000_S192x16x1000x16)
        shapeCasts_S192x16x1000x16_S192000x256) (ix2 row f)
      = A (ix3 (g3bt row f) (g3c row f) (node nb (g3n row f) (g3k row f))) := by
  have hr := row.isLt
  have hf := f.isLt
  refine (shapeCast_apply _ shapeCasts_S192x16x1000x16_S192000x256 (ix2 row f)
    (ix4 (g3bt row f) (g3c row f) (g3n row f) (g3k row f)) ?_).trans ?_
  · rewrite [Shape.rowMajor_val_four, Shape.rowMajor_val_two]
    show ((((row.val * 256 + f.val) / 256000) * 16 + (row.val * 256 + f.val) / 16000 % 16) * 1000 + (row.val * 256 + f.val) / 16 % 1000) * 16
      + (row.val * 256 + f.val) % 16 = row.val * 256 + f.val
    omega
  refine (shapeCast_apply _ shapeCasts_S3072x16000_S192x16x1000x16 (ix4 (g3bt row f) (g3c row f) (g3n row f) (g3k row f))
    (ix2 (⟨(g3bt row f).val * 16 + (g3c row f).val, by have := (g3bt row f).isLt; have := (g3c row f).isLt; omega⟩ : Fin 3072)
      (⟨(g3n row f).val * 16 + (g3k row f).val, by have := (g3n row f).isLt; have := (g3k row f).isLt; omega⟩ : Fin 16000)) ?_).trans ?_
  · rewrite [Shape.rowMajor_val_four, Shape.rowMajor_val_two]
    show ((g3bt row f).val * 16 + (g3c row f).val) * 16000 + ((g3n row f).val * 16 + (g3k row f).val)
      = (((g3bt row f).val * 16 + (g3c row f).val) * 1000 + (g3n row f).val) * 16 + (g3k row f).val
    omega
  refine (gmm_oneHot 3072 _ nb hnn _ (g3n row f) (g3k row f) _ rfl).trans ?_
  refine shapeCast_apply A shapeCasts_S192x16x1000_S3072x1000 _ (ix3 (g3bt row f) (g3c row f) (node nb (g3n row f) (g3k row f))) ?_
  rewrite [Shape.rowMajor_val_three, Shape.rowMajor_val_two]
  show ((g3bt row f).val * 16 + (g3c row f).val) * 1000 + (node nb (g3n row f) (g3k row f)).val
    = ((g3bt row f).val * 16 + (g3c row f).val) * 1000 + (node nb (g3n row f) (g3k row f)).val
  rfl

/-- The transposed weights of layer 3 read at `(f, 0)` are the weights at `(0, f)`. -/
theorem wT3_apply (W3 : FVec Ideal S1x256 .f32) (f : Fin 256) : wT3 W3 (ix2 f (0 : Fin 1)) = W3 (ix2 (0 : Fin 1) f) := by
  unfold wT3
  refine (truncf_apply (ψ := .bf16) (transpose S256x1 [1, 0] W3 transposes_S1x256_S256x1_1_0) bitsLt_bf16_f32 (ix2 f (0 : Fin 1))).trans ?_
  exact transpose_apply [1, 0] W3 transposes_S1x256_S256x1_1_0 (ix2 f (0 : Fin 1)) (ix2 (0 : Fin 1) f) (fun b => match b with
    | ⟨0, _⟩ => rfl
    | ⟨1, _⟩ => rfl)

/-- The kernel's stage 3 read at a result index: the dense layer on the gathered row `(b·24 + t)·1000 + n`. -/
theorem kstage3_apply (A : FVec Ideal S192x16x1000 .f32) (nb : IVec S1000x16 32) (W3 : FVec Ideal S1x256 .f32) (b3 : FVec Ideal S1 .f32)
    (hnn : ∀ i, 0 ≤ (nb i).toInt) (b : Fin 8) (t : Fin 24) (n : Fin 1000) (row : Fin 192000)
    (hrow : row.val = (b.val * 24 + t.val) * 1000 + n.val) :
    kstage3 A nb W3 b3 (ix3 b t n)
      = max ((∑ f : Fin 256, A (ix3 (g3bt row f) (g3c row f) (node nb (g3n row f) (g3k row f))) * W3 (ix2 (0 : Fin 1) f)) + b3 (ix1 (0 : Fin 1)))
          (Ideal.ofBits .f32 0x00000000#32) := by
  unfold kstage3
  refine (shapeCast_apply _ shapeCasts_S192000x1_S8x24x1000 (ix3 b t n) (ix2 row (0 : Fin 1)) ?_).trans ?_
  · rewrite [Shape.rowMajor_val_two, Shape.rowMajor_val_three]
    show row.val * 1 + 0 = (b.val * 24 + t.val) * 1000 + n.val
    omega
  unfold denseC
  refine congrArg₂ max (congrArg₂ (· + ·) (Finset.sum_congr rfl fun f _ => congrArg₂ (· * ·) ?_ ?_) rfl) rfl
  · exact gathered3_apply A nb hnn row f
  · exact wT3_apply W3 f

/-- The reference's stage 3 read at a result index. -/
theorem ref3_apply (x0 : FVec Ideal S8x24x1000x1 .f32) (nb : IVec S1000x16 32) (W1 : FVec Ideal S32x16 .f32) (b1 : FVec Ideal S32 .f32)
    (W2 : FVec Ideal S16x512 .f32) (b2 : FVec Ideal S16 .f32) (W3 : FVec Ideal S1x256 .f32) (b3 : FVec Ideal S1 .f32) (gamma beta : FVec Ideal S16 .f32)
    (hnn : ∀ i, 0 ≤ (nb i).toInt) (b : Fin 8) (t : Fin 24) (n : Fin 1000) (row : Fin 192000)
    (hrow : row.val = (b.val * 24 + t.val) * 1000 + n.val) :
    val_main_v53 (F := Ideal) x0 nb W1 b1 W2 b2 W3 b3 gamma beta (ix3 b t n)
      = max ((∑ f : Fin 256, val_main_v38 (F := Ideal) x0 nb W1 b1 W2 b2 gamma beta (ix3 (g3bt row f) (g3c row f) (node nb (g3n row f) (g3k row f)))
            * W3 (ix2 (0 : Fin 1) f)) + b3 (ix1 (0 : Fin 1)))
          (Ideal.ofBits .f32 0x00000000#32) := by
  have hb := b.isLt
  have ht := t.isLt
  have hn := n.isLt
  have hr := row.isLt
  rw [Cert.ReferenceIdeal.Read.val_main_v53_apply, Cert.ReferenceIdeal.Read.val_main_v52_apply, Cert.ReferenceIdeal.Read.val_main_v51_apply,
    Cert.ReferenceIdeal.Read.val_main_v50_apply, Cert.ReferenceIdeal.Read.val_main_v47_apply, Cert.ReferenceIdeal.Read.val_main_v49_apply,
    Cert.ReferenceIdeal.Read.val_main_v48_apply, Cert.ReferenceIdeal.Read.val_main_call2_v0_apply, Cert.ReferenceIdeal.Read.val_main_call2_cst_apply]
  simp only [Ideal.maximumf_def, Ideal.addf_def, Ideal.ofBits_def]
  refine congrArg₂ max (congrArg₂ (· + ·) (Finset.sum_congr rfl fun f _ => congrArg₂ (· * ·) ?_ ?_) ?_) rfl
  · have hf := f.isLt
    rw [Cert.ReferenceIdeal.Read.val_main_v46_apply]
    unfold Cert.ReferenceIdeal.Read.val_main_v45
    have e : Cert.ReferenceIdeal.Read.idx_main_v46 (Cert.ReferenceIdeal.Read.lidx_main_v47
          (Cert.ReferenceIdeal.Read.idx_main_v51 (Cert.ReferenceIdeal.Read.idx_main_v53 (ix3 b t n))) f)
        = ix4 (g3bt row f) (g3c row f) (g3n row f) (g3k row f) := funext fun a => Fin.ext (by
      match a with
      | ⟨0, _⟩ =>
        show (((((b.val * 24 + t.val) * 1000 + n.val) / 1000) * 1000 + ((b.val * 24 + t.val) * 1000 + n.val) % 1000) * 256 + f.val) / 256000
          = (row.val * 256 + f.val) / 256000
        rw [hrow, Nat.div_add_mod']
      | ⟨1, _⟩ =>
        show (((((b.val * 24 + t.val) * 1000 + n.val) / 1000) * 1000 + ((b.val * 24 + t.val) * 1000 + n.val) % 1000) * 256 + f.val) / 16000 % 16
          = (row.val * 256 + f.val) / 16000 % 16
        rw [hrow, Nat.div_add_mod']
      | ⟨2, _⟩ =>
        show (((((b.val * 24 + t.val) * 1000 + n.val) / 1000) * 1000 + ((b.val * 24 + t.val) * 1000 + n.val) % 1000) * 256 + f.val) / 16 % 1000
          = (row.val * 256 + f.val) / 16 % 1000
        rw [hrow, Nat.div_add_mod']
      | ⟨3, _⟩ =>
        show (((((b.val * 24 + t.val) * 1000 + n.val) / 1000) * 1000 + ((b.val * 24 + t.val) * 1000 + n.val) % 1000) * 256 + f.val) % 16
          = (row.val * 256 + f.val) % 16
        rw [hrow, Nat.div_add_mod'])
    rw [e]
    exact gather_ref3 _ nb hnn _ _ _ _
  · exact congrArg W3 (funext fun a => Fin.ext (by
      match a with
      | ⟨0, _⟩ => rfl
      | ⟨1, _⟩ => rfl))
  · exact congrArg b3 (funext fun a => Fin.ext (by
      match a with
      | ⟨0, _⟩ => rfl))

theorem stage3 (x0 : FVec Ideal S8x24x1000x1 .f32) (nb : IVec S1000x16 32) (W1 : FVec Ideal S32x16 .f32) (b1 : FVec Ideal S32 .f32)
    (W2 : FVec Ideal S16x512 .f32) (b2 : FVec Ideal S16 .f32) (W3 : FVec Ideal S1x256 .f32) (b3 : FVec Ideal S1 .f32) (gamma beta : FVec Ideal S16 .f32)
    (hnn : ∀ i, 0 ≤ (nb i).toInt) :
    kstage3 (val_main_v38 (F := Ideal) x0 nb W1 b1 W2 b2 gamma beta) nb W3 b3 = val_main_v53 (F := Ideal) x0 nb W1 b1 W2 b2 W3 b3 gamma beta := by
  funext i
  obtain ⟨b, t, n, rfl⟩ : ∃ (b : Fin 8) (t : Fin 24) (n : Fin 1000), i = ix3 b t n := ⟨i 0, i 1, i 2, eq_ix3 i⟩
  have hb := b.isLt
  have ht := t.isLt
  have hn := n.isLt
  have hrow : (b.val * 24 + t.val) * 1000 + n.val < 192000 := by omega
  exact (kstage3_apply _ nb W3 b3 hnn b t n ⟨_, hrow⟩ rfl).trans
    (ref3_apply x0 nb W1 b1 W2 b2 W3 b3 gamma beta hnn b t n ⟨_, hrow⟩ rfl).symm

end Cert.Bridge

end
-- ==== Proof.lean ====
/-
  The kernel and its reference compute the same three-stage graph network on the extended reals.

  Each stage gathers, for every node, the features of its 16 neighbours and applies a dense layer (with a batch-norm
  scale and shift in stage 2) and a relu. The reference gathers with `x[:, :, neighbors]`; the kernel multiplies the
  features by a one-hot selection matrix built from the neighbour ids clipped into `[0, 999]`. A product with a one-hot
  column is the selected entry, the two raw row-major reshapes between the gather and the dense layer are one reshape,
  and the dense layers are the same sums, so the stages agree entry by entry — as long as both read the SAME node:
  for an id in `[0, 999]` both read it, for an id above both read node 999, but a negative id the reference wraps
  (`-1` is node 999) while the kernel clips it to node 0. Hence the precondition's added conjunct: no neighbour id is
  negative.

  The three frames are the generated ones (the reference's is its generated run with the result dropped);
  `preserves` is trivial (the ideal pass rewrote nothing); `algebraic` puts the kernel's run, with its result buffer
  read back through the six pallas_calls (Proof/KernelRun.lean, Proof/KernelValue.lean, Proof/Final0–5.lean), beside
  the reference's generated run, the two results joined by the three stage lemmas (Proof/Stage1–3.lean).
-/
import proofs.«410030_j78323023610545_3_alg».proof.Defs
import proofs.«410030_j78323023610545_3_alg».proof.Proof.Gen.Kernel
import proofs.«410030_j78323023610545_3_alg».proof.Proof.Gen.Kernel.Skeleton
import proofs.«410030_j78323023610545_3_alg».proof.Proof.Gen.Kernel.Launch
import proofs.«410030_j78323023610545_3_alg».proof.Proof.Gen.Kernel.Points
import proofs.«410030_j78323023610545_3_alg».proof.Proof.Gen.Kernel.Frame
import proofs.«410030_j78323023610545_3_alg».proof.Proof.Gen.KernelIdeal
import proofs.«410030_j78323023610545_3_alg».proof.Proof.Gen.KernelIdeal.Skeleton
import proofs.«410030_j78323023610545_3_alg».proof.Proof.Gen.KernelIdeal.Launch
import proofs.«410030_j78323023610545_3_alg».proof.Proof.Gen.KernelIdeal.Points
import proofs.«410030_j78323023610545_3_alg».proof.Proof.Gen.KernelIdeal.Frame
import proofs.«410030_j78323023610545_3_alg».proof.Proof.Gen.ReferenceIdeal
import proofs.«410030_j78323023610545_3_alg».proof.Proof.Gen.Pre_finite_inputs
import proofs.«410030_j78323023610545_3_alg».proof.Proof.Gen.ReferenceIdeal.Run
import proofs.«410030_j78323023610545_3_alg».proof.Proof.Gen.ReferenceIdeal.Read
import proofs.«410030_j78323023610545_3_alg».proof.Proof.KernelRun
import proofs.«410030_j78323023610545_3_alg».proof.Proof.KernelValue
import proofs.«410030_j78323023610545_3_alg».proof.Proof.PreNonneg
import proofs.«410030_j78323023610545_3_alg».proof.Proof.Stage1
import proofs.«410030_j78323023610545_3_alg».proof.Proof.Stage2
import proofs.«410030_j78323023610545_3_alg».proof.Proof.Stage3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference's value of the arguments: the kernel's result buffer holds the three stages of
    the specification (`kernel_value`), which are the reference's stages when no neighbour id is negative. -/
theorem algebraic : Cert.algebraic_KernelIdeal_ReferenceIdeal := by
  intro m ρ m' ρ' hpre hagree
  refine ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.RunResult.run_result (F := Ideal) m ρ)
    have hnn := Cert.Bridge.nonneg_of_pre _ _ _ _ _ _ _ _ _ _ (hpre c)
    rw [Cert.KernelIdeal.KValue.kernel_value, Cert.Bridge.stage1 _ _ _ _ hnn, Cert.Bridge.stage2 _ _ _ _ _ _ _ _ hnn,
      Cert.Bridge.stage3 _ _ _ _ _ _ _ _ _ _ hnn]
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [e0, e1, e2, e3, e4, e5, e6, e7, e8, e9]
    exact Cert.ReferenceIdeal.Read.val_main_v53_eq (F := Ideal) _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
